-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x5 : Shape := ⟨2, ![1024, 5]⟩
abbrev S1024x2 : Shape := ⟨2, ![1024, 2]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5 : S_.BroadcastsInDim S1024x5 (![] : Fin 0 → Fin S1024x5.rank)
  reducesTo_S1024x5_S_d0_1 : S1024x5.ReducesTo [0, 1] S_
  bcast_S_S1024x2 : S_.BroadcastsInDim S1024x2 (![] : Fin 0 → Fin S1024x2.rank)
  reducesTo_S1024x2_S_d0_1 : S1024x2.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x1024 .f32) (main_arg1 : FVec F S1024x5 .f32) (main_arg2 : FVec F S1024x2 .f32) (main_arg3 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x5 .f32 := Host.absf main_arg1
  let main_cst_0 : FVec F S_ .f32 := constant S_ .f32 0x7F800000#32
  let main_v5 : FVec F S1024x5 .f32 := broadcastInDim S1024x5 ![] bcast_S_S1024x5 main_cst_0
  let main_v6 : IVec S1024x5 1 := cmpf .olt main_v4 main_v5
  let main_c_1 : IVec S_ 1 := constantI S_ 1 1#1
  let main_v7 : IVec S_ 1 := (fun x v => Host.reduce IntOp.andi x v reducesTo_S1024x5_S_d0_1 h_S_) main_v6 main_c_1
  let main_v8 : IVec S_ 1 := andi main_v3 main_v7
  let main_v9 : FVec F S1024x2 .f32 := Host.absf main_arg2
  let main_cst_2 : FVec F S_ .f32 := constant S_ .f32 0x7F800000#32
  let main_v10 : FVec F S1024x2 .f32 := broadcastInDim S1024x2 ![] bcast_S_S1024x2 main_cst_2
  let main_v11 : IVec S1024x2 1 := cmpf .olt main_v9 main_v10
  let main_c_3 : IVec S_ 1 := constantI S_ 1 1#1
  let main_v12 : IVec S_ 1 := (fun x v => Host.reduce IntOp.andi x v reducesTo_S1024x2_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x1024 : Shape := ⟨2, ![8192, 1024]⟩
abbrev S1024x5 : Shape := ⟨2, ![1024, 5]⟩
abbrev S1024x2 : Shape := ⟨2, ![1024, 2]⟩
abbrev S1024 : Shape := ⟨1, ![1024]⟩
abbrev S5x1024 : Shape := ⟨2, ![5, 1024]⟩
abbrev S2x1024 : Shape := ⟨2, ![2, 1024]⟩
abbrev S512x1024 : Shape := ⟨2, ![512, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5, .f32⟩
  | .hbm, ⟨2, _⟩ => ⟨S1024x2, .f32⟩
  | .hbm, ⟨3, _⟩ => ⟨S1024, .f32⟩
  | .hbm, ⟨4, _⟩ => ⟨S5x1024, .f32⟩
  | .hbm, ⟨5, _⟩ => ⟨S2x1024, .f32⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S5x1024, .f32⟩
  | .local _ .vmem, ⟨3, _⟩ => ⟨S2x1024, .f32⟩
  | .local _ .vmem, ⟨4, _⟩ => ⟨S1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1024x5_S5x1024_1_0 : S1024x5.Transposes [1, 0] S5x1024
  transposes_S1024x2_S2x1024_1_0 : S1024x2.Transposes [1, 0] S2x1024
  inb_S512x1024_S512x1024_0_0 : ∀ a, (![0, 0] : Fin 2 → Nat) a + S512x1024.size a ≤ S512x1024.size a
  h_S512x1024 : 0 < S512x1024.numel
  inb_S5x1024_S5x1024_0_0 : ∀ a, (![0, 0] : Fin 2 → Nat) a + S5x1024.size a ≤ S5x1024.size a
  h_S5x1024 : 0 < S5x1024.numel
  shapeCasts_S5x1024_S5x1024 : S5x1024.ShapeCasts S5x1024
  slices_S5x1024_o0_0_S1x1024 : S5x1024.Slices ![0, 0] S1x1024
  shapeCasts_S1x1024_S1024 : S1x1024.ShapeCasts S1024
  slices_S5x1024_o1_0_S1x1024 : S5x1024.Slices ![1, 0] S1x1024
  shapeCasts_S1024_S1x1024 : S1024.ShapeCasts S1x1024
  broadcasts_S1x1024_S512x1024 : S1x1024.Broadcasts S512x1024
  slices_S5x1024_o2_0_S1x1024 : S5x1024.Slices ![2, 0] S1x1024
  slices_S5x1024_o3_0_S1x1024 : S5x1024.Slices ![3, 0] S1x1024
  slices_S5x1024_o4_0_S1x1024 : S5x1024.Slices ![4, 0] S1x1024
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  slices_S2x1024_o0_0_S1x1024 : S2x1024.Slices ![0, 0] S1x1024
  slices_S2x1024_o1_0_S1x1024 : S2x1024.Slices ![1, 0] S1x1024
  inb_S1024_S1024_0 : ∀ a, (![0] : Fin 1 → Nat) a + S1024.size a ≤ S1024.size a
  h_S1024 : 0 < S1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x1024.size a ≤ S5x1024.size a
  hwx0_1 : ∀ i : grid0.Coords, EltTy.bits .f32 = 32 ∨ (Rect.block (s := S5x1024) S5x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x5 : Shape := ⟨2, ![1024, 5]⟩
abbrev S1024x2 : Shape := ⟨2, ![1024, 2]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S8192x1024x1 : Shape := ⟨3, ![8192, 1024, 1]⟩
abbrev S8192x1024x2 : Shape := ⟨3, ![8192, 1024, 2]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S1024x5, .f32⟩
  | 2 => ⟨S1024x2, .f32⟩
  | 3 => ⟨S1024, .f32⟩
  | 4 => ⟨S1024, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S1024, .i32⟩
  | 12 => ⟨S1024, .i32⟩
  | 13 => ⟨S_, .i32⟩
  | 14 => ⟨S1024, .i32⟩
  | 15 => ⟨S1024, .i1⟩
  | 16 => ⟨S_, .i32⟩
  | 17 => ⟨S1024, .i32⟩
  | 18 => ⟨S1024, .i1⟩
  | 19 => ⟨S_, .i32⟩
  | 20 => ⟨S_, .i1⟩
  | 21 => ⟨S1024, .i1⟩
  | 22 => ⟨S1024, .i1⟩
  | 23 => ⟨S1024, .i1⟩
  | 24 => ⟨S1024, .i32⟩
  | 25 => ⟨S1024, .i32⟩
  | 26 => ⟨S1024, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S_, .f32⟩
  | 46 => ⟨S_, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S8192x1024, .f32⟩
  | 60 => ⟨S_, .i32⟩
  | 61 => ⟨S_, .i32⟩
  | 62 => ⟨S_, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S8192x1024, .i32⟩
  | 69 => ⟨S8192x1024, .f32⟩
  | 70 => ⟨S8192x1024, .f32⟩
  | 71 => ⟨S1024, .i32⟩
  | 72 => ⟨S1x1024, .i32⟩
  | 73 => ⟨S_, .i32⟩
  | 74 => ⟨S1x1024, .i32⟩
  | 75 => ⟨S1x1024, .i1⟩
  | 76 => ⟨S_, .i32⟩
  | 77 => ⟨S1x1024, .i32⟩
  | 78 => ⟨S1x1024, .i32⟩
  | 79 => ⟨S1x1024, .i32⟩
  | 80 => ⟨S_, .i32⟩
  | 81 => ⟨S8192x1024, .i32⟩
  | 82 => ⟨S8192x1024, .i1⟩
  | 83 => ⟨S_, .i32⟩
  | 84 => ⟨S8192x1024, .i32⟩
  | 85 => ⟨S8192x1024, .i32⟩
  | 86 => ⟨S8192x1024, .i32⟩
  | 87 => ⟨S8192x1024, .i32⟩
  | 88 => ⟨S8192x1024x1, .i32⟩
  | 89 => ⟨S8192x1024x1, .i32⟩
  | 90 => ⟨S8192x1024x2, .i32⟩
  | 91 => ⟨S8192x1024, .f32⟩
  | 92 => ⟨S_, .i32⟩
  | 93 => ⟨S8192x1024, .i32⟩
  | 94 => ⟨S8192x1024, .i32⟩
  | 95 => ⟨S_, .i32⟩
  | 96 => ⟨S1x1024, .i32⟩
  | 97 => ⟨S1x1024, .i1⟩
  | 98 => ⟨S_, .i32⟩
  | 99 => ⟨S1x1024, .i32⟩
  | 100 => ⟨S1x1024, .i32⟩
  | 101 => ⟨S1x1024, .i32⟩
  | 102 => ⟨S_, .i32⟩
  | 103 => ⟨S8192x1024, .i32⟩
  | 104 => ⟨S8192x1024, .i1⟩
  | 105 => ⟨S_, .i32⟩
  | 106 => ⟨S8192x1024, .i32⟩
  | 107 => ⟨S8192x1024, .i32⟩
  | 108 => ⟨S8192x1024, .i32⟩
  | 109 => ⟨S8192x1024, .i32⟩
  | 110 => ⟨S8192x1024x1, .i32⟩
  | 111 => ⟨S8192x1024x1, .i32⟩
  | 112 => ⟨S8192x1024x2, .i32⟩
  | 113 => ⟨S8192x1024, .f32⟩
  | 114 => ⟨S_, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S1024x1, .f32⟩
  | 121 => ⟨S1024, .f32⟩
  | 122 => ⟨S1x1024, .f32⟩
  | 123 => ⟨S8192x1024, .f32⟩
  | 124 => ⟨S8192x1024, .f32⟩
  | 125 => ⟨S1024x1, .f32⟩
  | 126 => ⟨S1024, .f32⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S8192x1024, .f32⟩
  | 5 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v9 : Ref sig .tc := ⟨.hbm, 44, rfl⟩
abbrev main_cst : Ref sig .tc := ⟨.hbm, 45, rfl⟩
abbrev main_cst_2 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v10 : Ref sig .tc := ⟨.hbm, 52, rfl⟩
abbrev main_cst_3 : Ref sig .tc := ⟨.hbm, 53, rfl⟩
abbrev main_v11 : Ref sig .tc := ⟨.hbm, 54, rfl⟩
abbrev main_v12 : Ref sig .tc := ⟨.hbm, 55, rfl⟩
abbrev main_cst_4 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_c_5 : Ref sig .tc := ⟨.hbm, 60, rfl⟩
abbrev main_c_6 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_c_7 : Ref sig .tc := ⟨.hbm, 73, rfl⟩
abbrev main_v22 : Ref sig .tc := ⟨.hbm, 74, rfl⟩
abbrev main_v23 : Ref sig .tc := ⟨.hbm, 75, rfl⟩
abbrev main_c_8 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_c_9 : Ref sig .tc := ⟨.hbm, 80, rfl⟩
abbrev main_v27 : Ref sig .tc := ⟨.hbm, 81, rfl⟩
abbrev main_v28 : Ref sig .tc := ⟨.hbm, 82, rfl⟩
abbrev main_c_10 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_c_11 : Ref sig .tc := ⟨.hbm, 92, rfl⟩
abbrev main_v37 : Ref sig .tc := ⟨.hbm, 93, rfl⟩
abbrev main_v38 : Ref sig .tc := ⟨.hbm, 94, rfl⟩
abbrev main_c_12 : Ref sig .tc := ⟨.hbm, 95, rfl⟩
abbrev main_v39 : Ref sig .tc := ⟨.hbm, 96, rfl⟩
abbrev main_v40 : Ref sig .tc := ⟨.hbm, 97, rfl⟩
abbrev main_c_13 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_c_14 : Ref sig .tc := ⟨.hbm, 102, rfl⟩
abbrev main_v44 : Ref sig .tc := ⟨.hbm, 103, rfl⟩
abbrev main_v45 : Ref sig .tc := ⟨.hbm, 104, rfl⟩
abbrev main_c_15 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_16 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)
  bcast_S8192x1024_S8192x1024x1_0_1 : S8192x1024.BroadcastsInDim S8192x1024x1 (![0, 1] : Fin 2 → Fin S8192x1024x1.rank)
  concatenates_S8192x1024x1_S8192x1024x1_S8192x1024x2_d2 : Shape.Concatenates [S8192x1024x1, S8192x1024x1] S8192x1024x2 2
  slices_S1024x2_S1024x1_0_0 : S1024x2.Slices ![0, 0] S1024x1
  shapeCasts_S1024x1_S1024 : S1024x1.ShapeCasts S1024
  slices_S1024x2_S1024x1_0_1 : S1024x2.Slices ![0, 1] S1024x1
  gather_S8192x1024_S1024x1_S8192x1024_0_1_n_n_1_1_81921_wf : GatherDims.WF S8192x1024 S1024x1 S8192x1024 [0] [1] [] [1] [] 1 ![8192, 1]
  gather_S1024x5_S8192x1024x2_S8192x1024_n_01_n_n_01_2_11_wf : GatherDims.WF S1024x5 S8192x1024x2 S8192x1024 [] [0, 1] [] [0, 1] [] 2 ![1, 1]

variable [Facts₀]

def gather_S8192x1024_S1024x1_S8192x1024_0_1_n_n_1_1_81921 : GatherDims S8192x1024 S1024x1 S8192x1024 where
  offsetDims := [0]
  collapsedSliceDims := [1]
  operandBatchingDims := []
  startIndicesBatchingDims := []
  startIndexMap := [1]
  indexVectorDim := 1
  sliceSizes := ![8192, 1]
  wf := gather_S8192x1024_S1024x1_S8192x1024_0_1_n_n_1_1_81921_wf
def gather_S1024x5_S8192x1024x2_S8192x1024_n_01_n_n_01_2_11 : GatherDims S1024x5 S8192x1024x2 S8192x1024 where
  offsetDims := []
  collapsedSliceDims := [0, 1]
  operandBatchingDims := []
  startIndicesBatchingDims := []
  startIndexMap := [0, 1]
  indexVectorDim := 2
  sliceSizes := ![1, 1]
  wf := gather_S1024x5_S8192x1024x2_S8192x1024_n_01_n_n_01_2_11_wf

class Facts : Prop extends Facts₀ where

variable [Facts]
-- ==== Proof.Spec.lean ====
/-
  The layer at one entry, as a function of the scalars it depends on.

  For an input x and the per-edge parameters c0 … c4 (the five spline coefficients of the edge), w0, w1 (the edge's
  2 -> 1 combine) and b (its bias):
    t     = (clip(x, -1, 1) + 1) / 0.5          the grid coordinate, in [0, 4]
    knot  = clip(⌊t⌋, 0, 3)                      the left knot, one of 0, 1, 2, 3
    frac  = t - knot
    seg a b = a · (1 - frac) + b · frac          the interpolation between two neighbouring coefficients
    spline  = seg c_k c_(k+1) for k = knot, written as the chain of four selects on knot = 3, 2, 1, 0 over 0
    kan     = (x · logistic x) · w0 + spline · w1 + b
  The float literals are kept as their binary words: 1.0 = 0x3F800000, -1.0 = 0xBF800000, 0.5 = 0x3F000000,
  0.0 = 0x00000000, 2.0 = 0x40000000, 3.0 = 0x40400000.
-/
import Idealize.ShloMosaic.PureOps

noncomputable section

namespace Cert.Spec

open Idealize.ShloMosaic

variable {F : FTy → Type} [FloatOps F]

/-- The grid coordinate t = (clip(x, -1, 1) + 1) / 0.5. -/
def tcoord (x : F .f32) : F .f32 :=
  FloatOps.divf
    (FloatOps.addf (FloatOps.minimumf (Scalar.ofBits .f32 0x3F800000#32) (FloatOps.maximumf (Scalar.ofBits .f32 0xBF800000#32) x))
      (Scalar.ofBits .f32 0x3F800000#32))
    (Scalar.ofBits .f32 0x3F000000#32)

/-- The left knot clip(⌊t⌋, 0, 3). -/
def knot (x : F .f32) : F .f32 :=
  FloatOps.minimumf (Scalar.ofBits .f32 0x40400000#32) (FloatOps.maximumf (Scalar.ofBits .f32 0x00000000#32) (FloatOps.floor (tcoord x)))

/-- frac = t - knot. -/
def frac (x : F .f32) : F .f32 := FloatOps.subf (tcoord x) (knot x)

/-- a · (1 - frac) + b · frac. -/
def seg (a b x : F .f32) : F .f32 :=
  FloatOps.addf (FloatOps.mulf a (FloatOps.subf (Scalar.ofBits .f32 0x3F800000#32) (frac x))) (FloatOps.mulf b (frac x))

/-- The spline value: the segment of the knot, chosen by four selects (knot = 3, then 2, then 1, then 0) over 0. -/
def spline (x c0 c1 c2 c3 c4 : F .f32) : F .f32 :=
  Scalar.select (FloatOps.cmpf .oeq (knot x) (Scalar.ofBits .f32 0x40400000#32)) (seg c3 c4 x)
    (Scalar.select (FloatOps.cmpf .oeq (knot x) (Scalar.ofBits .f32 0x40000000#32)) (seg c2 c3 x)
      (Scalar.select (FloatOps.cmpf .oeq (knot x) (Scalar.ofBits .f32 0x3F800000#32)) (seg c1 c2 x)
        (Scalar.select (FloatOps.cmpf .oeq (knot x) (Scalar.ofBits .f32 0x00000000#32)) (seg c0 c1 x)
          (Scalar.ofBits .f32 0x00000000#32))))

/-- One entry of the layer: silu(x) · w0 + spline(x) · w1 + b. -/
def kan (x c0 c1 c2 c3 c4 w0 w1 b : F .f32) : F .f32 :=
  FloatOps.addf (FloatOps.addf (FloatOps.mulf (FloatOps.mulf x (FloatOps.logistic x)) w0) (FloatOps.mulf (spline x c0 c1 c2 c3 c4) w1)) b

end Cert.Spec

end
-- ==== Proof.KernelArray.lean ====
/-
  The kernel's result array as one function of the arrays its one region finds.

  The grid has 16 points; point t stages rows [512 t, 512 t + 512) of X (all 1024 columns), the whole transposed
  coefficient table [5, 1024], the whole transposed combine table [2, 1024] and the whole bias [1024], and writes back
  rows [512 t, 512 t + 512) of the result. The body is elementwise in the X block: at block index (p, q) it stores
  kan (x[p, q]) (coefT[0, q]) … (coefT[4, q]) (wT[0, q]) (wT[1, q]) (b[q]) (Spec.kan: the layer at one entry). So the
  block point t writes back is block t of the array layer X coefT wT b, and since the 16 row blocks tile the 8192 rows
  the result array ends holding that array.
-/
import proofs.«158777_j1108101562900_1_alg».proof.Proof.KernelValueP
import proofs.«158777_j1108101562900_1_alg».proof.Proof.Spec
import Idealize.ShloMosaic.Lib.ValueIdx
import Idealize.ShloMosaic.Lib.StableHlo.Run

noncomputable section

namespace Cert.KernelIdeal.KanArray

open Cert.KernelIdeal Cert.KernelIdeal.Gen Cert.KernelIdeal.ValueP Idealize.ShloMosaic Idealize.ShloMosaic.TcCoe Idealize.SL.Sem
open Idealize.ShloMosaic.Pipeline (Dat)
open Idealize.ShloMosaic.ValueIdx (ix1 ix2 eq_ix2)

variable {F : FTy → Type} [FloatOps F]

/-- The layer at row r and edge o, over the arrays the region stages: X, the transposed coefficients, the transposed
    combine weights and the bias. -/
def entry (X : S8192x1024.Idx → Elt F .f32) (Ct : S5x1024.Idx → Elt F .f32) (Wt : S2x1024.Idx → Elt F .f32)
    (B : S1024.Idx → Elt F .f32) (r : Fin 8192) (o : Fin 1024) : Elt F .f32 :=
  Cert.Spec.kan (X (ix2 r o)) (Ct (ix2 (0 : Fin 5) o)) (Ct (ix2 (1 : Fin 5) o)) (Ct (ix2 (2 : Fin 5) o)) (Ct (ix2 (3 : Fin 5) o))
    (Ct (ix2 (4 : Fin 5) o)) (Wt (ix2 (0 : Fin 2) o)) (Wt (ix2 (1 : Fin 2) o)) (B (ix1 o))

theorem zero2 : (![0, 0] : Fin 2 → Nat) = fun _ => 0 := funext fun a => by fin_cases a <;> rfl
theorem zero1 : (![0] : Fin 1 → Nat) = fun _ => 0 := funext fun a => by fin_cases a; rfl

/-- The body's result at a block index is the layer's entry of the loaded vectors at the indices the body's slices and
    broadcasts read them at (the staged blocks in the order the body loads them: X, the combine table, the coefficient
    table, the bias). -/
theorem E4_kan (P0 : Vec F S512x1024 .f32) (P1 : Vec F S2x1024 .f32) (P2 : Vec F S5x1024 .f32) (P3 : Vec F S1024 .f32)
    (y : S512x1024.Idx) :
    E4 P0 P1 P2 P3 y = Cert.Spec.kan (P0 (ix4_0 y)) (P2 (ix4_25 y)) (P2 (ix4_18 y)) (P2 (ix4_11 y)) (P2 (ix4_4 y)) (P2 (ix4_7 y))
      (P1 (ix4_2 y)) (P1 (ix4_31 y)) (P3 (ix4_32 y)) := rfl

/-! Those indices at the block index (p, q): the X block is read at (p, q) itself, row s of a parameter table at (s, q),
the bias at q. -/

theorem at_x (p : Fin 512) (q : Fin 1024) : ix4_0 (ix2 p q) = ix2 p q :=
  funext fun a => match a with | ⟨0, _⟩ => rfl | ⟨1, _⟩ => rfl
theorem at_c0 (p : Fin 512) (q : Fin 1024) : ix4_25 (ix2 p q) = ix2 (0 : Fin 5) q :=
  funext fun a => match a with | ⟨0, _⟩ => rfl | ⟨1, _⟩ => rfl
theorem at_c1 (p : Fin 512) (q : Fin 1024) : ix4_18 (ix2 p q) = ix2 (1 : Fin 5) q :=
  funext fun a => match a with | ⟨0, _⟩ => rfl | ⟨1, _⟩ => rfl
theorem at_c2 (p : Fin 512) (q : Fin 1024) : ix4_11 (ix2 p q) = ix2 (2 : Fin 5) q :=
  funext fun a => match a with | ⟨0, _⟩ => rfl | ⟨1, _⟩ => rfl
theorem at_c3 (p : Fin 512) (q : Fin 1024) : ix4_4 (ix2 p q) = ix2 (3 : Fin 5) q :=
  funext fun a => match a with | ⟨0, _⟩ => rfl | ⟨1, _⟩ => rfl
theorem at_c4 (p : Fin 512) (q : Fin 1024) : ix4_7 (ix2 p q) = ix2 (4 : Fin 5) q :=
  funext fun a => match a with | ⟨0, _⟩ => rfl | ⟨1, _⟩ => rfl
theorem at_w0 (p : Fin 512) (q : Fin 1024) : ix4_2 (ix2 p q) = ix2 (0 : Fin 2) q :=
  funext fun a => match a with | ⟨0, _⟩ => rfl | ⟨1, _⟩ => rfl
theorem at_w1 (p : Fin 512) (q : Fin 1024) : ix4_31 (ix2 p q) = ix2 (1 : Fin 2) q :=
  funext fun a => match a with | ⟨0, _⟩ => rfl | ⟨1, _⟩ => rfl
theorem at_b (p : Fin 512) (q : Fin 1024) : ix4_32 (ix2 p q) = ix1 q :=
  funext fun a => match a with | ⟨0, _⟩ => rfl

/-- What the body leaves in the result block at block index (p, q), for any staged blocks: the layer's entry of the
    X block's element there and column q of the three parameter blocks. -/
theorem block_entry (x0 : Vec F S512x1024 .f32) (x1 : Vec F S5x1024 .f32) (x2 : Vec F S2x1024 .f32) (x3 : Vec F S1024 .f32)
    (p : Fin 512) (q : Fin 1024) :
    out0_4 x0 x1 x2 x3 (ix2 p q)
      = Cert.Spec.kan (x0 (ix2 p q)) (x1 (ix2 (0 : Fin 5) q)) (x1 (ix2 (1 : Fin 5) q)) (x1 (ix2 (2 : Fin 5) q)) (x1 (ix2 (3 : Fin 5) q))
          (x1 (ix2 (4 : Fin 5) q)) (x2 (ix2 (0 : Fin 2) q)) (x2 (ix2 (1 : Fin 2) q)) (x3 (ix1 q)) := by
  unfold out0_4
  rw [canon4_eq]
  simp only [View.ld_unit_zero (S := S512x1024) zero2, View.ld_unit_zero (S := S5x1024) zero2,
    View.ld_unit_zero (S := S2x1024) zero2, View.ld_unit_zero (S := S1024) zero1]
  rw [E4_kan, at_x, at_c0, at_c1, at_c2, at_c3, at_c4, at_w0, at_w1, at_b]

variable (m : (ℓ : Loc nD τ sig) → Buf (Elt F) ℓ) (ρ : Dev nD → PrngReg)

/-- Row and column of an index of the result array. -/
abbrev rowOf (i : S8192x1024.Idx) : Fin 8192 := ⟨(i 0).val, (i 0).isLt⟩
abbrev colOf (i : S8192x1024.Idx) : Fin 1024 := ⟨(i 1).val, (i 1).isLt⟩

/-- The whole result array: at (r, o) the layer's entry. -/
def layer (X : S8192x1024.Idx → Elt F .f32) (Ct : S5x1024.Idx → Elt F .f32) (Wt : S2x1024.Idx → Elt F .f32)
    (B : S1024.Idx → Elt F .f32) : S8192x1024.Idx → Elt F .f32 :=
  fun i => entry X Ct Wt B (rowOf i) (colOf i)

/-- The result array of core c's run: the layer over the arrays the region finds. -/
abbrev result (c : Dev nD) : S8192x1024.Idx → Elt F .f32 :=
  layer (V m c main_arg0) (V m c main_v0) (V m c main_v1) (V m c main_arg3)

/-- The printed index maps over the 16 grid points: the X window and the result window sit at row block t, column block 0;
    the three parameter windows always at block 0. -/
theorem idx_facts : ∀ t : Fin cfg0.N, win0_0.index t (0 : Fin 2) = t.val ∧ win0_0.index t (1 : Fin 2) = 0
    ∧ win0_4.index t (0 : Fin 2) = t.val ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 :=
  (by decide +kernel : ∀ t : Fin grid0.N, _)

/-- What point t writes back is block t of the result array. -/
theorem flushed_eq (c : Dev nD) (t : Fin cfg0.N) :
    (dats m 0 c).flushed 4 t = ((cfg0.win 4).blk t).view.read (Elt F) (result m c) := by
  rw [flushed4]
  funext j
  obtain ⟨p, q, rfl⟩ : ∃ (p : Fin 512) (q : Fin 1024), j = ix2 p q := ⟨j 0, j 1, eq_ix2 j⟩
  show out0_4 (iblk m c 0 t) (iblk m c 1 t) (iblk m c 2 t) (iblk m c 3 t) (ix2 p q)
    = result m c (((cfg0.win 4).blk t).view.emb (ix2 p q))
  refine (block_entry (iblk m c 0 t) (iblk m c 1 t) (iblk m c 2 t) (iblk m c 3 t) p q).trans ?_
  obtain ⟨e00, e01, e40, e41, e10, e11, e20, e21, e30⟩ := idx_facts t
  have hc : colOf (((cfg0.win 4).blk t).view.emb (ix2 p q)) = q :=
    Fin.ext (by show win0_4.index t (1 : Fin 2) * 1024 + 1 * q.val = q.val; omega)
  have hx : ((cfg0.win 0).blk t).view.emb (ix2 p q) = ix2 (rowOf (((cfg0.win 4).blk t).view.emb (ix2 p q))) q := by
    funext a; apply Fin.ext
    match a with
    | ⟨0, _⟩ => show win0_0.index t (0 : Fin 2) * 512 + 1 * p.val = win0_4.index t (0 : Fin 2) * 512 + 1 * p.val; omega
    | ⟨1, _⟩ => show win0_0.index t (1 : Fin 2) * 1024 + 1 * q.val = q.val; omega
  have hC : ∀ s : Fin 5, ((cfg0.win 1).blk t).view.emb (ix2 s q) = ix2 s q := fun s => by
    funext a; apply Fin.ext
    match a with
    | ⟨0, _⟩ => show win0_1.index t (0 : Fin 2) * 5 + 1 * s.val = s.val; omega
    | ⟨1, _⟩ => show win0_1.index t (1 : Fin 2) * 1024 + 1 * q.val = q.val; omega
  have hW : ∀ s : Fin 2, ((cfg0.win 2).blk t).view.emb (ix2 s q) = ix2 s q := fun s => by
    funext a; apply Fin.ext
    match a with
    | ⟨0, _⟩ => show win0_2.index t (0 : Fin 2) * 2 + 1 * s.val = s.val; omega
    | ⟨1, _⟩ => show win0_2.index t (1 : Fin 2) * 1024 + 1 * q.val = q.val; omega
  have hB : ((cfg0.win 3).blk t).view.emb (ix1 q) = ix1 q := by
    funext a; apply Fin.ext
    match a with
    | ⟨0, _⟩ => show win0_3.index t (0 : Fin 1) * 1024 + 1 * q.val = q.val; omega
  show Cert.Spec.kan (V m c main_arg0 (((cfg0.win 0).blk t).view.emb (ix2 p q)))
      (V m c main_v0 (((cfg0.win 1).blk t).view.emb (ix2 (0 : Fin 5) q))) (V m c main_v0 (((cfg0.win 1).blk t).view.emb (ix2 (1 : Fin 5) q)))
      (V m c main_v0 (((cfg0.win 1).blk t).view.emb (ix2 (2 : Fin 5) q))) (V m c main_v0 (((cfg0.win 1).blk t).view.emb (ix2 (3 : Fin 5) q)))
      (V m c main_v0 (((cfg0.win 1).blk t).view.emb (ix2 (4 : Fin 5) q))) (V m c main_v1 (((cfg0.win 2).blk t).view.emb (ix2 (0 : Fin 2) q)))
      (V m c main_v1 (((cfg0.win 2).blk t).view.emb (ix2 (1 : Fin 2) q))) (V m c main_arg3 (((cfg0.win 3).blk t).view.emb (ix1 q)))
    = entry (V m c main_arg0) (V m c main_v0) (V m c main_v1) (V m c main_arg3)
        (rowOf (((cfg0.win 4).blk t).view.emb (ix2 p q))) (colOf (((cfg0.win 4).blk t).view.emb (ix2 p q)))
  rw [hc, hx, hC, hC, hC, hC, hC, hW, hW, hB]
  rfl

/-- An index is in point t's result block iff each coordinate is in the block's range on its axis. -/
theorem mem_blk (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v2).slice (win0_4.rect t)).set ↔ _
  rw [View.set_slice_whole, Rect.mem_set_unit]
  exact Iff.rfl

/-- Every row block number below 16 is some grid point's. -/
theorem point_of : ∀ k : Fin 16, ∃ t : Fin cfg0.N, t.val = k.val :=
  (by decide +kernel : ∀ k : Fin 16, ∃ t : Fin grid0.N, t.val = k.val)

/-- The 16 row blocks tile the array: row r lies in the block of point r / 512. -/
theorem cover (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := point_of ⟨(i 0).val / 512, by omega⟩
  have ht' : t.val = (i 0).val / 512 := ht
  obtain ⟨e00, e01, e40, e41, e10, e11, e20, e21, e30⟩ := idx_facts t
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- So the result array ends holding the layer over the arrays the region finds. -/
theorem final (c : Dev nD) : (dats m 0 c).arrAt 4 cfg0.N = result m c :=
  (dats m 0 c).arrAt_eq_of_cover 4 (result m c) (fun t _ => flushed_eq m c t) cover

/-- The region finds the coefficient table transposed: the host operation before it. -/
theorem V_coefT (c : Dev nD) :
    (V m c main_v0 : S5x1024.Idx → Elt F .f32)
      = transpose S5x1024 [1, 0] (m ((c : Thread nD τ).loc main_arg1)) transposes_S1024x5_S5x1024_1_0 := by
  dsimp only [Gen.V, Gen.hostOps0]; after_results

/-- The region finds the combine table transposed: the host operation before it. -/
theorem V_wT (c : Dev nD) :
    (V m c main_v1 : S2x1024.Idx → Elt F .f32)
      = transpose S2x1024 [1, 0] (m ((c : Thread nD τ).loc main_arg2)) transposes_S1024x2_S2x1024_1_0 := by
  dsimp only [Gen.V, Gen.hostOps0]; after_results

/-- The kernel program's run, read: the result array is the layer over X, the two transposed tables and the bias, and
    the four arguments are unchanged. -/
theorem run : θ_run defs (onTc (τ := τ) (main (F := F))) ⟨m, fun _ => 0, ρ⟩ fun r => ∀ c : Dev nD,
      r.2.mem ((c : Thread nD τ).loc main_v2)
        = layer (m ((c : Thread nD τ).loc main_arg0))
            (transpose S5x1024 [1, 0] (m ((c : Thread nD τ).loc main_arg1)) transposes_S1024x5_S5x1024_1_0)
            (transpose S2x1024 [1, 0] (m ((c : Thread nD τ).loc main_arg2)) transposes_S1024x2_S2x1024_1_0)
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      show layer (V m c main_arg0) (V m c main_v0) (V m c main_v1) (V m c main_arg3) = _
      rw [V_main_arg0, V_coefT, V_wT, V_main_arg3])), (h c).2⟩)
    (run_blocks m ρ)

end Cert.KernelIdeal.KanArray

end
-- ==== Proof.RefOps.lean ====
/-
  The reference program's @main as ONE straight line of host operations, and its run.

  @main is two windows run in order (statements 1 … 60, then 61 … 93). Four of the first window's statements are
  calls of module-local functions; a call means the callee's body on the operands, so each is replaced by the
  callee's operations over that call's buffer record: `remainder` (twenty operations, and inside it `_where`'s one
  select, into `main_call0` and `main_call0.call0`), `silu` (nine, into `main_call1`), `clip` (six, into
  `main_call2`) and `clip_0` (six, into `main_call3`). That is 56 + 21 + 9 + 6 + 6 = 98 operations for the first
  window and 32 for the second: 130 in all, in program order.

  `main_eq`: with the windows, the callees and the sequencing unfolded, @main is that line. The signature scopes
  no buffer and no semaphore and every operation touches TensorCore buffers only, so the library's run of a
  straight line applies: every weakly fair execution terminates, and each TensorCore buffer ends at the fold of
  the operations' results over the launch contents (`run_main`).
-/
import proofs.«158777_j1108101562900_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 130 operations in order, every call replaced by its callee's operations over the call's record. -/
abbrev ops : List (HloOp τ sig (Elt F)) :=
  [ nullary main_v0 (iotaInDim S1024 32 0),
    nullary main_c (constantI S_ 32 1024#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1024 ![] bcast_S_S1024),
    TRef.binary (.of main_v0 : TRef sig ⟨S1024, .i32⟩) main_call0.v3 main_call0.v4 Host.remsi,
    TRef.nullary main_call0.c_1 (constantI S_ 32 0#32),
    TRef.unary main_call0.c_1 main_call0.v5 (broadcastInDim S1024 ![] bcast_S_S1024),
    TRef.binary main_call0.v4 main_call0.v5 main_call0.v6 (cmpi .ne),
    TRef.nullary main_call0.c_2 (constantI S_ 32 0#32),
    TRef.unary main_call0.c_2 main_call0.v7 (broadcastInDim S1024 ![] bcast_S_S1024),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1024 ![] bcast_S_S1024),
    TRef.binary main_call0.v8 main_call0.v10 main_call0.v11 (cmpi .ne),
    TRef.binary main_call0.v11 main_call0.v6 main_call0.v12 andi,
    TRef.unary main_call0.call0.v0 main_call0.v13 (broadcastInDim S1024 ![] bcast_S_S1024),
    TRef.binary main_call0.v4 main_call0.v13 main_call0.v14 addi,
    TRef.ternary main_call0.v12 main_call0.v14 main_call0.v4 main_call0.v15 select,
    nullary main_c_0 (constantI S_ 32 0#32),
    unary main_c_0 main_v2 (broadcastInDim S1024 ![] bcast_S_S1024 : (⟨S_, .i32⟩ : BufTy).Contents (Elt F) → (⟨S1024, .i32⟩ : BufTy).Contents (Elt F)),
    binary main_v1 main_v2 main_v3 (cmpi .slt : (⟨S1024, .i32⟩ : BufTy).Contents (Elt F) → (⟨S1024, .i32⟩ : BufTy).Contents (Elt F) → (⟨S1024, .i1⟩ : BufTy).Contents (Elt F)),
    nullary main_c_1 (constantI S_ 32 1024#32),
    unary main_c_1 main_v4 (broadcastInDim S1024 ![] bcast_S_S1024 : (⟨S_, .i32⟩ : BufTy).Contents (Elt F) → (⟨S1024, .i32⟩ : BufTy).Contents (Elt F)),
    binary main_v1 main_v4 main_v5 (addi : (⟨S1024, .i32⟩ : BufTy).Contents (Elt F) → (⟨S1024, .i32⟩ : BufTy).Contents (Elt F) → (⟨S1024, .i32⟩ : BufTy).Contents (Elt F)),
    ternary main_v3 main_v5 main_v1 main_v6 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v6 main_v7 (broadcastInDim S1024x1 ![0] bcast_S1024_S1024x1_0 : (⟨S1024, .i32⟩ : BufTy).Contents (Elt F) → (⟨S1024x1, .i32⟩ : BufTy).Contents (Elt F)),
    binary main_arg0 main_v7 main_v8 ((fun x i => Host.gather gather_S8192x1024_S1024x1_S8192x1024_0_1_n_n_1_1_81921 x i) : (⟨S8192x1024, .f32⟩ : BufTy).Contents (Elt F) → (⟨S1024x1, .i32⟩ : BufTy).Contents (Elt F) → (⟨S8192x1024, .f32⟩ : BufTy).Contents (Elt F)),
    TRef.unary (.of main_v8 : TRef sig ⟨S8192x1024, .f32⟩) main_call1.v0 Host.negf,
    TRef.unary main_call1.v0 main_call1.v1 Host.exp,
    TRef.nullary main_call1.cst (constant S_ .f32 0x3F800000#32),
    TRef.unary main_call1.cst main_call1.v2 (broadcastInDim S8192x1024 ![] bcast_S_S8192x1024),
    TRef.binary main_call1.v2 main_call1.v1 main_call1.v3 addf,
    TRef.nullary main_call1.cst_0 (constant S_ .f32 0x3F800000#32),
    TRef.unary main_call1.cst_0 main_call1.v4 (broadcastInDim S8192x1024 ![] bcast_S_S8192x1024),
    TRef.binary main_call1.v4 main_call1.v3 main_call1.v5 Host.divf,
    TRef.binary (.of main_v8 : TRef sig ⟨S8192x1024, .f32⟩) main_call1.v5 main_call1.v6 mulf,
    nullary main_cst (constant S_ .f32 0xBF800000#32),
    nullary main_cst_2 (constant S_ .f32 0x3F800000#32),
    TRef.unary (.of main_cst : TRef sig ⟨S_, .f32⟩) main_call2.v0 id,
    TRef.unary main_call2.v0 main_call2.v1 (broadcastInDim S8192x1024 ![] bcast_S_S8192x1024),
    TRef.binary main_call2.v1 (.of main_v8 : TRef sig ⟨S8192x1024, .f32⟩) main_call2.v2 maximumf,
    TRef.unary (.of main_cst_2 : TRef sig ⟨S_, .f32⟩) main_call2.v3 id,
    TRef.unary main_call2.v3 main_call2.v4 (broadcastInDim S8192x1024 ![] bcast_S_S8192x1024),
    TRef.binary main_call2.v4 main_call2.v2 main_call2.v5 minimumf,
    nullary main_cst_3 (constant S_ .f32 0x3F800000#32),
    unary main_cst_3 main_v11 (broadcastInDim S8192x1024 ![] bcast_S_S8192x1024 : (⟨S_, .f32⟩ : BufTy).Contents (Elt F) → (⟨S8192x1024, .f32⟩ : BufTy).Contents (Elt F)),
    binary main_v10 main_v11 main_v12 (addf : (⟨S8192x1024, .f32⟩ : BufTy).Contents (Elt F) → (⟨S8192x1024, .f32⟩ : BufTy).Contents (Elt F) → (⟨S8192x1024, .f32⟩ : BufTy).Contents (Elt F)),
    nullary main_cst_4 (constant S_ .f32 0x3F000000#32),
    unary main_cst_4 main_v13 (broadcastInDim S8192x1024 ![] bcast_S_S8192x1024 : (⟨S_, .f32⟩ : BufTy).Contents (Elt F) → (⟨S8192x1024, .f32⟩ : BufTy).Contents (Elt F)),
    binary main_v12 main_v13 main_v14 (Host.divf : (⟨S8192x1024, .f32⟩ : BufTy).Contents (Elt F) → (⟨S8192x1024, .f32⟩ : BufTy).Contents (Elt F) → (⟨S8192x1024, .f32⟩ : BufTy).Contents (Elt F)),
    unary main_v14 main_v15 (Host.floor : (⟨S8192x1024, .f32⟩ : BufTy).Contents (Elt F) → (⟨S8192x1024, .f32⟩ : BufTy).Contents (Elt F)),
    nullary main_c_5 (constantI S_ 32 0#32),
    nullary main_c_6 (constantI S_ 32 3#32),
    TRef.unary (.of main_c_5 : TRef sig ⟨S_, .i32⟩) main_call3.v0 (sitofp .f32),
    TRef.unary main_call3.v0 main_call3.v1 (broadcastInDim S8192x1024 ![] bcast_S_S8192x1024),
    TRef.binary main_call3.v1 (.of main_v15 : TRef sig ⟨S8192x1024, .f32⟩) main_call3.v2 maximumf,
    TRef.unary (.of main_c_6 : TRef sig ⟨S_, .i32⟩) main_call3.v3 (sitofp .f32),
    TRef.unary main_call3.v3 main_call3.v4 (broadcastInDim S8192x1024 ![] bcast_S_S8192x1024),
    TRef.binary main_call3.v4 main_call3.v2 main_call3.v5 minimumf,
    unary main_v16 main_v17 (fptosi 32 : (⟨S8192x1024, .f32⟩ : BufTy).Contents (Elt F) → (⟨S8192x1024, .i32⟩ : BufTy).Contents (Elt F)),
    unary main_v17 main_v18 (sitofp .f32 : (⟨S8192x1024, .i32⟩ : BufTy).Contents (Elt F) → (⟨S8192x1024, .f32⟩ : BufTy).Contents (Elt F)),
    binary main_v14 main_v18 main_v19 (subf : (⟨S8192x1024, .f32⟩ : BufTy).Contents (Elt F) → (⟨S8192x1024, .f32⟩ : BufTy).Contents (Elt F) → (⟨S8192x1024, .f32⟩ : BufTy).Contents (Elt F)),
    nullary main_v20 (iotaInDim S1024 32 0),
    unary main_v20 main_v21 (broadcastInDim S1x1024 ![1] bcast_S1024_S1x1024_1 : (⟨S1024, .i32⟩ : BufTy).Contents (Elt F) → (⟨S1x1024, .i32⟩ : BufTy).Contents (Elt F)),
    nullary main_c_7 (constantI S_ 32 0#32),
    unary main_c_7 main_v22 (broadcastInDim S1x1024 ![] bcast_S_S1x1024 : (⟨S_, .i32⟩ : BufTy).Contents (Elt F) → (⟨S1x1024, .i32⟩ : BufTy).Contents (Elt F)),
    binary main_v21 main_v22 main_v23 (cmpi .slt : (⟨S1x1024, .i32⟩ : BufTy).Contents (Elt F) → (⟨S1x1024, .i32⟩ : BufTy).Contents (Elt F) → (⟨S1x1024, .i1⟩ : BufTy).Contents (Elt F)),
    nullary main_c_8 (constantI S_ 32 1024#32),
    unary main_c_8 main_v24 (broadcastInDim S1x1024 ![] bcast_S_S1x1024 : (⟨S_, .i32⟩ : BufTy).Contents (Elt F) → (⟨S1x1024, .i32⟩ : BufTy).Contents (Elt F)),
    binary main_v21 main_v24 main_v25 (addi : (⟨S1x1024, .i32⟩ : BufTy).Contents (Elt F) → (⟨S1x1024, .i32⟩ : BufTy).Contents (Elt F) → (⟨S1x1024, .i32⟩ : BufTy).Contents (Elt F)),
    ternary main_v23 main_v25 main_v21 main_v26 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    nullary main_c_9 (constantI S_ 32 0#32),
    unary main_c_9 main_v27 (broadcastInDim S8192x1024 ![] bcast_S_S8192x1024 : (⟨S_, .i32⟩ : BufTy).Contents (Elt F) → (⟨S8192x1024, .i32⟩ : BufTy).Contents (Elt F)),
    binary main_v17 main_v27 main_v28 (cmpi .slt : (⟨S8192x1024, .i32⟩ : BufTy).Contents (Elt F) → (⟨S8192x1024, .i32⟩ : BufTy).Contents (Elt F) → (⟨S8192x1024, .i1⟩ : BufTy).Contents (Elt F)),
    nullary main_c_10 (constantI S_ 32 5#32),
    unary main_c_10 main_v29 (broadcastInDim S8192x1024 ![] bcast_S_S8192x1024 : (⟨S_, .i32⟩ : BufTy).Contents (Elt F) → (⟨S8192x1024, .i32⟩ : BufTy).Contents (Elt F)),
    binary main_v17 main_v29 main_v30 (addi : (⟨S8192x1024, .i32⟩ : BufTy).Contents (Elt F) → (⟨S8192x1024, .i32⟩ : BufTy).Contents (Elt F) → (⟨S8192x1024, .i32⟩ : BufTy).Contents (Elt F)),
    ternary main_v28 main_v30 main_v17 main_v31 (select : (⟨S8192x1024, .i1⟩ : BufTy).Contents (Elt F) → (⟨S8192x1024, .i32⟩ : BufTy).Contents (Elt F) → (⟨S8192x1024, .i32⟩ : BufTy).Contents (Elt F) → (⟨S8192x1024, .i32⟩ : BufTy).Contents (Elt F)),
    unary main_v26 main_v32 (broadcastInDim S8192x1024 ![0, 1] bcast_S1x1024_S8192x1024_0_1 : (⟨S1x1024, .i32⟩ : BufTy).Contents (Elt F) → (⟨S8192x1024, .i32⟩ : BufTy).Contents (Elt F)),
    unary main_v32 main_v33 (broadcastInDim S8192x1024x1 ![0, 1] bcast_S8192x1024_S8192x1024x1_0_1 : (⟨S8192x1024, .i32⟩ : BufTy).Contents (Elt F) → (⟨S8192x1024x1, .i32⟩ : BufTy).Contents (Elt F)),
    unary main_v31 main_v34 (broadcastInDim S8192x1024x1 ![0, 1] bcast_S8192x1024_S8192x1024x1_0_1 : (⟨S8192x1024, .i32⟩ : BufTy).Contents (Elt F) → (⟨S8192x1024x1, .i32⟩ : BufTy).Contents (Elt F)),
    binary main_v33 main_v34 main_v35 ((fun a b => concatenate S8192x1024x2 2 [⟨S8192x1024x1, a⟩, ⟨S8192x1024x1, b⟩] concatenates_S8192x1024x1_S8192x1024x1_S8192x1024x2_d2) : (⟨S8192x1024x1, .i32⟩ : BufTy).Contents (Elt F) → (⟨S8192x1024x1, .i32⟩ : BufTy).Contents (Elt F) → (⟨S8192x1024x2, .i32⟩ : BufTy).Contents (Elt F)),
    binary main_arg1 main_v35 main_v36 ((fun x i => Host.gather gather_S1024x5_S8192x1024x2_S8192x1024_n_01_n_n_01_2_11 x i) : (⟨S1024x5, .f32⟩ : BufTy).Contents (Elt F) → (⟨S8192x1024x2, .i32⟩ : BufTy).Contents (Elt F) → (⟨S8192x1024, .f32⟩ : BufTy).Contents (Elt F)),
    nullary main_c_11 (constantI S_ 32 1#32),
    unary main_c_11 main_v37 (broadcastInDim S8192x1024 ![] bcast_S_S8192x1024 : (⟨S_, .i32⟩ : BufTy).Contents (Elt F) → (⟨S8192x1024, .i32⟩ : BufTy).Contents (Elt F)),
    binary main_v17 main_v37 main_v38 (addi : (⟨S8192x1024, .i32⟩ : BufTy).Contents (Elt F) → (⟨S8192x1024, .i32⟩ : BufTy).Contents (Elt F) → (⟨S8192x1024, .i32⟩ : BufTy).Contents (Elt F)),
    nullary main_c_12 (constantI S_ 32 0#32),
    unary main_c_12 main_v39 (broadcastInDim S1x1024 ![] bcast_S_S1x1024 : (⟨S_, .i32⟩ : BufTy).Contents (Elt F) → (⟨S1x1024, .i32⟩ : BufTy).Contents (Elt F)),
    binary main_v21 main_v39 main_v40 (cmpi .slt : (⟨S1x1024, .i32⟩ : BufTy).Contents (Elt F) → (⟨S1x1024, .i32⟩ : BufTy).Contents (Elt F) → (⟨S1x1024, .i1⟩ : BufTy).Contents (Elt F)),
    nullary main_c_13 (constantI S_ 32 1024#32),
    unary main_c_13 main_v41 (broadcastInDim S1x1024 ![] bcast_S_S1x1024 : (⟨S_, .i32⟩ : BufTy).Contents (Elt F) → (⟨S1x1024, .i32⟩ : BufTy).Contents (Elt F)),
    binary main_v21 main_v41 main_v42 (addi : (⟨S1x1024, .i32⟩ : BufTy).Contents (Elt F) → (⟨S1x1024, .i32⟩ : BufTy).Contents (Elt F) → (⟨S1x1024, .i32⟩ : BufTy).Contents (Elt F)),
    ternary main_v40 main_v42 main_v21 main_v43 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    nullary main_c_14 (constantI S_ 32 0#32),
    unary main_c_14 main_v44 (broadcastInDim S8192x1024 ![] bcast_S_S8192x1024 : (⟨S_, .i32⟩ : BufTy).Contents (Elt F) → (⟨S8192x1024, .i32⟩ : BufTy).Contents (Elt F)),
    binary main_v38 main_v44 main_v45 (cmpi .slt : (⟨S8192x1024, .i32⟩ : BufTy).Contents (Elt F) → (⟨S8192x1024, .i32⟩ : BufTy).Contents (Elt F) → (⟨S8192x1024, .i1⟩ : BufTy).Contents (Elt F)),
    nullary main_c_15 (constantI S_ 32 5#32),
    unary main_c_15 main_v46 (broadcastInDim S8192x1024 ![] bcast_S_S8192x1024 : (⟨S_, .i32⟩ : BufTy).Contents (Elt F) → (⟨S8192x1024, .i32⟩ : BufTy).Contents (Elt F)),
    binary main_v38 main_v46 main_v47 (addi : (⟨S8192x1024, .i32⟩ : BufTy).Contents (Elt F) → (⟨S8192x1024, .i32⟩ : BufTy).Contents (Elt F) → (⟨S8192x1024, .i32⟩ : BufTy).Contents (Elt F)),
    ternary main_v45 main_v47 main_v38 main_v48 (select : (⟨S8192x1024, .i1⟩ : BufTy).Contents (Elt F) → (⟨S8192x1024, .i32⟩ : BufTy).Contents (Elt F) → (⟨S8192x1024, .i32⟩ : BufTy).Contents (Elt F) → (⟨S8192x1024, .i32⟩ : BufTy).Contents (Elt F)),
    unary main_v43 main_v49 (broadcastInDim S8192x1024 ![0, 1] bcast_S1x1024_S8192x1024_0_1 : (⟨S1x1024, .i32⟩ : BufTy).Contents (Elt F) → (⟨S8192x1024, .i32⟩ : BufTy).Contents (Elt F)),
    unary main_v49 main_v50 (broadcastInDim S8192x1024x1 ![0, 1] bcast_S8192x1024_S8192x1024x1_0_1 : (⟨S8192x1024, .i32⟩ : BufTy).Contents (Elt F) → (⟨S8192x1024x1, .i32⟩ : BufTy).Contents (Elt F)),
    unary main_v48 main_v51 (broadcastInDim S8192x1024x1 ![0, 1] bcast_S8192x1024_S8192x1024x1_0_1 : (⟨S8192x1024, .i32⟩ : BufTy).Contents (Elt F) → (⟨S8192x1024x1, .i32⟩ : BufTy).Contents (Elt F)),
    binary main_v50 main_v51 main_v52 ((fun a b => concatenate S8192x1024x2 2 [⟨S8192x1024x1, a⟩, ⟨S8192x1024x1, b⟩] concatenates_S8192x1024x1_S8192x1024x1_S8192x1024x2_d2) : (⟨S8192x1024x1, .i32⟩ : BufTy).Contents (Elt F) → (⟨S8192x1024x1, .i32⟩ : BufTy).Contents (Elt F) → (⟨S8192x1024x2, .i32⟩ : BufTy).Contents (Elt F)),
    binary main_arg1 main_v52 main_v53 ((fun x i => Host.gather gather_S1024x5_S8192x1024x2_S8192x1024_n_01_n_n_01_2_11 x i) : (⟨S1024x5, .f32⟩ : BufTy).Contents (Elt F) → (⟨S8192x1024x2, .i32⟩ : BufTy).Contents (Elt F) → (⟨S8192x1024, .f32⟩ : BufTy).Contents (Elt F)),
    nullary main_cst_16 (constant S_ .f32 0x3F800000#32),
    unary main_cst_16 main_v54 (broadcastInDim S8192x1024 ![] bcast_S_S8192x1024 : (⟨S_, .f32⟩ : BufTy).Contents (Elt F) → (⟨S8192x1024, .f32⟩ : BufTy).Contents (Elt F)),
    binary main_v54 main_v19 main_v55 (subf : (⟨S8192x1024, .f32⟩ : BufTy).Contents (Elt F) → (⟨S8192x1024, .f32⟩ : BufTy).Contents (Elt F) → (⟨S8192x1024, .f32⟩ : BufTy).Contents (Elt F)),
    binary main_v36 main_v55 main_v56 (mulf : (⟨S8192x1024, .f32⟩ : BufTy).Contents (Elt F) → (⟨S8192x1024, .f32⟩ : BufTy).Contents (Elt F) → (⟨S8192x1024, .f32⟩ : BufTy).Contents (Elt F)),
    binary main_v53 main_v19 main_v57 (mulf : (⟨S8192x1024, .f32⟩ : BufTy).Contents (Elt F) → (⟨S8192x1024, .f32⟩ : BufTy).Contents (Elt F) → (⟨S8192x1024, .f32⟩ : BufTy).Contents (Elt F)),
    binary main_v56 main_v57 main_v58 (addf : (⟨S8192x1024, .f32⟩ : BufTy).Contents (Elt F) → (⟨S8192x1024, .f32⟩ : BufTy).Contents (Elt F) → (⟨S8192x1024, .f32⟩ : BufTy).Contents (Elt F)),
    unary main_arg2 main_v59 ((extractStridedSlice S1024x1 ![0, 0] · slices_S1024x2_S1024x1_0_0) : (⟨S1024x2, .f32⟩ : BufTy).Contents (Elt F) → (⟨S1024x1, .f32⟩ : BufTy).Contents (Elt F)),
    reshape main_v59 main_v60 rfl shapeCasts_S1024x1_S1024,
    unary main_v60 main_v61 (broadcastInDim S1x1024 ![1] bcast_S1024_S1x1024_1 : (⟨S1024, .f32⟩ : BufTy).Contents (Elt F) → (⟨S1x1024, .f32⟩ : BufTy).Contents (Elt F)),
    unary main_v61 main_v62 (broadcastInDim S8192x1024 ![0, 1] bcast_S1x1024_S8192x1024_0_1 : (⟨S1x1024, .f32⟩ : BufTy).Contents (Elt F) → (⟨S8192x1024, .f32⟩ : BufTy).Contents (Elt F)),
    binary main_v9 main_v62 main_v63 (mulf : (⟨S8192x1024, .f32⟩ : BufTy).Contents (Elt F) → (⟨S8192x1024, .f32⟩ : BufTy).Contents (Elt F) → (⟨S8192x1024, .f32⟩ : BufTy).Contents (Elt F)),
    unary main_arg2 main_v64 ((extractStridedSlice S1024x1 ![0, 1] · slices_S1024x2_S1024x1_0_1) : (⟨S1024x2, .f32⟩ : BufTy).Contents (Elt F) → (⟨S1024x1, .f32⟩ : BufTy).Contents (Elt F)),
    reshape main_v64 main_v65 rfl shapeCasts_S1024x1_S1024,
    unary main_v65 main_v66 (broadcastInDim S1x1024 ![1] bcast_S1024_S1x1024_1 : (⟨S1024, .f32⟩ : BufTy).Contents (Elt F) → (⟨S1x1024, .f32⟩ : BufTy).Contents (Elt F)),
    unary main_v66 main_v67 (broadcastInDim S8192x1024 ![0, 1] bcast_S1x1024_S8192x1024_0_1 : (⟨S1x1024, .f32⟩ : BufTy).Contents (Elt F) → (⟨S8192x1024, .f32⟩ : BufTy).Contents (Elt F)),
    binary main_v58 main_v67 main_v68 (mulf : (⟨S8192x1024, .f32⟩ : BufTy).Contents (Elt F) → (⟨S8192x1024, .f32⟩ : BufTy).Contents (Elt F) → (⟨S8192x1024, .f32⟩ : BufTy).Contents (Elt F)),
    binary main_v63 main_v68 main_v69 (addf : (⟨S8192x1024, .f32⟩ : BufTy).Contents (Elt F) → (⟨S8192x1024, .f32⟩ : BufTy).Contents (Elt F) → (⟨S8192x1024, .f32⟩ : BufTy).Contents (Elt F)),
    unary main_arg3 main_v70 (broadcastInDim S1x1024 ![1] bcast_S1024_S1x1024_1 : (⟨S1024, .f32⟩ : BufTy).Contents (Elt F) → (⟨S1x1024, .f32⟩ : BufTy).Contents (Elt F)),
    unary main_v70 main_v71 (broadcastInDim S8192x1024 ![0, 1] bcast_S1x1024_S8192x1024_0_1 : (⟨S1x1024, .f32⟩ : BufTy).Contents (Elt F) → (⟨S8192x1024, .f32⟩ : BufTy).Contents (Elt F)),
    binary main_v69 main_v71 main_v72 (addf : (⟨S8192x1024, .f32⟩ : BufTy).Contents (Elt F) → (⟨S8192x1024, .f32⟩ : BufTy).Contents (Elt F) → (⟨S8192x1024, .f32⟩ : BufTy).Contents (Elt F)) ]

-- 130 binds re-associated: the rewrite under the chain recurses once per statement
set_option maxRecDepth 8192 in
set_option maxHeartbeats 4000000 in
/-- @main is that straight line: the two windows and the functions' definitions unfolded at their calls, both sides
    are one chain of host steps once sequencing is re-associated. -/
theorem main_eq (c : Dev nD) : main (F := F) c = seq ops := by
  simp only [main, main_part0, main_part1, fn_remainder.body, fn_where.body, fn_silu.body, fn_clip.body, fn_clip_0.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., unary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    binary_bufs_sub .., binary_bufs_sub .., nullary_bufs_sub .., unary_bufs_sub .., binary_bufs_sub .., binary_bufs_sub ..,
    binary_bufs_sub .., binary_bufs_sub .., unary_bufs_sub .., reshape_bufs_sub .., unary_bufs_sub .., unary_bufs_sub ..,
    binary_bufs_sub .., unary_bufs_sub .., reshape_bufs_sub .., unary_bufs_sub .., unary_bufs_sub .., binary_bufs_sub ..,
    binary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's result as a function of its four argument arrays, stage by stage.

  jnp's reference reads x = X[:, arange(1024) % 1024] (a gather along axis 1 at the index o % 1024, with jnp's
  sign fix-ups of the remainder and of a negative index), then, elementwise in x:
  silu = x · (1 / (1 + e^(-x))), the grid coordinate t = (clip(x, -1, 1) + 1) / 0.5, the left knot
  k = int(clip(⌊t⌋, 0, 3)), frac = t - float(k), the two spline coefficients coeffs[o, k] and coeffs[o, k + 1]
  (point gathers at the index pair (o, k), each component with jnp's fix-up of a negative index), the interpolation
  c0 · (1 - frac) + c1 · frac, and silu · W[o, 0] + spline · W[o, 1] + b[o].
  Each definition below is one named value of that chain, as a composition of the host operations; out is the
  result array.
-/
import proofs.«158777_j1108101562900_1_alg».proof.ReferenceIdeal

noncomputable section

namespace Cert.ReferenceIdeal.RefValue

open Cert.ReferenceIdeal Idealize.ShloMosaic Idealize.SL.Sem
open Cert.ReferenceIdeal.Facts₀ Cert.ReferenceIdeal.Facts

variable {F : FTy → Type} [FloatOps F] [Facts]

/-- The divisor jnp's remainder uses: 1 where the modulus is 0, else the modulus (here 1024). -/
def modulus : IVec S_ 32 :=
  select (cmpi .eq (id (constantI S_ 32 1024#32) : IVec S_ 32) (constantI S_ 32 0#32)) (constantI S_ 32 1#32)
    (id (constantI S_ 32 1024#32) : IVec S_ 32)

/-- The truncated remainder of o by the modulus. -/
def remTrunc : IVec S1024 32 :=
  Host.remsi (iotaInDim S1024 32 0) (broadcastInDim S1024 ![] bcast_S_S1024 modulus)

/-- arange(1024) % 1024 with the floor-remainder fix-up (add the modulus where the signs differ and the remainder is
    not zero). -/
def floorRem : IVec S1024 32 :=
  select
    (andi
      (cmpi .ne (cmpi .slt remTrunc (broadcastInDim S1024 ![] bcast_S_S1024 (constantI S_ 32 0#32)))
        (broadcastInDim S1024 ![] bcast_S_S1024 (cmpi .slt modulus (constantI S_ 32 0#32))))
      (cmpi .ne remTrunc (broadcastInDim S1024 ![] bcast_S_S1024 (constantI S_ 32 0#32))))
    (addi remTrunc (broadcastInDim S1024 ![] bcast_S_S1024 modulus))
    remTrunc

/-- The column index each output column reads, after jnp's fix-up of a negative index (add 1024). -/
def colIdx : IVec S1024 32 :=
  select (cmpi .slt floorRem (broadcastInDim S1024 ![] bcast_S_S1024 (constantI S_ 32 0#32)))
    (addi floorRem (broadcastInDim S1024 ![] bcast_S_S1024 (constantI S_ 32 1024#32)))
    floorRem

/-- x = X[:, colIdx]. -/
def xg (X : FVec F S8192x1024 .f32) : FVec F S8192x1024 .f32 :=
  Host.gather gather_S8192x1024_S1024x1_S8192x1024_0_1_n_n_1_1_81921 X
    (broadcastInDim S1024x1 ![0] bcast_S1024_S1024x1_0 colIdx)

/-- silu(x) = x · (1 / (1 + e^(-x))). -/
def siluR (x : FVec F S8192x1024 .f32) : FVec F S8192x1024 .f32 :=
  mulf x
    (Host.divf (broadcastInDim S8192x1024 ![] bcast_S_S8192x1024 (constant S_ .f32 0x3F800000#32))
      (addf (broadcastInDim S8192x1024 ![] bcast_S_S8192x1024 (constant S_ .f32 0x3F800000#32)) (Host.exp (Host.negf x))))

/-- clip(x, -1, 1). -/
def clipR (x : FVec F S8192x1024 .f32) : FVec F S8192x1024 .f32 :=
  minimumf (broadcastInDim S8192x1024 ![] bcast_S_S8192x1024 (id (constant S_ .f32 0x3F800000#32) : FVec F S_ .f32))
    (maximumf (broadcastInDim S8192x1024 ![] bcast_S_S8192x1024 (id (constant S_ .f32 0xBF800000#32) : FVec F S_ .f32)) x)

/-- The grid coordinate t = (clip(x, -1, 1) + 1) / 0.5. -/
def tR (x : FVec F S8192x1024 .f32) : FVec F S8192x1024 .f32 :=
  Host.divf (addf (clipR x) (broadcastInDim S8192x1024 ![] bcast_S_S8192x1024 (constant S_ .f32 0x3F800000#32)))
    (broadcastInDim S8192x1024 ![] bcast_S_S8192x1024 (constant S_ .f32 0x3F000000#32))

/-- The left knot as a float: clip(⌊t⌋, 0, 3). -/
def kfR (x : FVec F S8192x1024 .f32) : FVec F S8192x1024 .f32 :=
  minimumf (broadcastInDim S8192x1024 ![] bcast_S_S8192x1024 (sitofp .f32 (constantI S_ 32 3#32) : FVec F S_ .f32))
    (maximumf (broadcastInDim S8192x1024 ![] bcast_S_S8192x1024 (sitofp .f32 (constantI S_ 32 0#32) : FVec F S_ .f32))
      (Host.floor (tR x)))

/-- The left knot as an integer. -/
def kI (x : FVec F S8192x1024 .f32) : IVec S8192x1024 32 := fptosi 32 (kfR x)

/-- frac = t - float(k). -/
def fracR (x : FVec F S8192x1024 .f32) : FVec F S8192x1024 .f32 := subf (tR x) (sitofp .f32 (kI x))

/-- The edge index o as a row [1, 1024], after jnp's fix-up of a negative index. -/
def edgeRow : IVec S1x1024 32 :=
  select
    (cmpi .slt (broadcastInDim S1x1024 ![1] bcast_S1024_S1x1024_1 (iotaInDim S1024 32 0))
      (broadcastInDim S1x1024 ![] bcast_S_S1x1024 (constantI S_ 32 0#32)))
    (addi (broadcastInDim S1x1024 ![1] bcast_S1024_S1x1024_1 (iotaInDim S1024 32 0))
      (broadcastInDim S1x1024 ![] bcast_S_S1x1024 (constantI S_ 32 1024#32)))
    (broadcastInDim S1x1024 ![1] bcast_S1024_S1x1024_1 (iotaInDim S1024 32 0))

/-- A knot index after jnp's fix-up of a negative index (add 5). -/
def wrapKnot (k : IVec S8192x1024 32) : IVec S8192x1024 32 :=
  select (cmpi .slt k (broadcastInDim S8192x1024 ![] bcast_S_S8192x1024 (constantI S_ 32 0#32)))
    (addi k (broadcastInDim S8192x1024 ![] bcast_S_S8192x1024 (constantI S_ 32 5#32)))
    k

/-- The start indices of the point gather: at (r, o) the pair (edge o, knot k[r, o]). -/
def pairIdx (k : IVec S8192x1024 32) : IVec S8192x1024x2 32 :=
  concatenate S8192x1024x2 2
    [⟨S8192x1024x1, broadcastInDim S8192x1024x1 ![0, 1] bcast_S8192x1024_S8192x1024x1_0_1
        (broadcastInDim S8192x1024 ![0, 1] bcast_S1x1024_S8192x1024_0_1 edgeRow)⟩,
     ⟨S8192x1024x1, broadcastInDim S8192x1024x1 ![0, 1] bcast_S8192x1024_S8192x1024x1_0_1 (wrapKnot k)⟩]
    concatenates_S8192x1024x1_S8192x1024x1_S8192x1024x2_d2

/-- coeffs[o, k] at every (r, o). -/
def coefAt (C : FVec F S1024x5 .f32) (k : IVec S8192x1024 32) : FVec F S8192x1024 .f32 :=
  Host.gather gather_S1024x5_S8192x1024x2_S8192x1024_n_01_n_n_01_2_11 C (pairIdx k)

/-- The knot to the right: k + 1. -/
def kNext (x : FVec F S8192x1024 .f32) : IVec S8192x1024 32 :=
  addi (kI x) (broadcastInDim S8192x1024 ![] bcast_S_S8192x1024 (constantI S_ 32 1#32))

/-- The linear B-spline: coeffs[o, k] · (1 - frac) + coeffs[o, k + 1] · frac. -/
def splineR (C : FVec F S1024x5 .f32) (x : FVec F S8192x1024 .f32) : FVec F S8192x1024 .f32 :=
  addf
    (mulf (coefAt C (kI x))
      (subf (broadcastInDim S8192x1024 ![] bcast_S_S8192x1024 (constant S_ .f32 0x3F800000#32)) (fracR x)))
    (mulf (coefAt C (kNext x)) (fracR x))

/-- Column 0 of W as an array [8192, 1024] constant along the rows. -/
def wCol0 (W : FVec F S1024x2 .f32) : FVec F S8192x1024 .f32 :=
  broadcastInDim S8192x1024 ![0, 1] bcast_S1x1024_S8192x1024_0_1
    (broadcastInDim S1x1024 ![1] bcast_S1024_S1x1024_1
      (shapeCast S1024 (extractStridedSlice S1024x1 ![0, 0] W slices_S1024x2_S1024x1_0_0) shapeCasts_S1024x1_S1024))

/-- Column 1 of W as an array [8192, 1024] constant along the rows. -/
def wCol1 (W : FVec F S1024x2 .f32) : FVec F S8192x1024 .f32 :=
  broadcastInDim S8192x1024 ![0, 1] bcast_S1x1024_S8192x1024_0_1
    (broadcastInDim S1x1024 ![1] bcast_S1024_S1x1024_1
      (shapeCast S1024 (extractStridedSlice S1024x1 ![0, 1] W slices_S1024x2_S1024x1_0_1) shapeCasts_S1024x1_S1024))

/-- The bias as an array [8192, 1024] constant along the rows. -/
def bRow (B : FVec F S1024 .f32) : FVec F S8192x1024 .f32 :=
  broadcastInDim S8192x1024 ![0, 1] bcast_S1x1024_S8192x1024_0_1 (broadcastInDim S1x1024 ![1] bcast_S1024_S1x1024_1 B)

/-- The reference's result: silu(x) · W[o, 0] + spline(x) · W[o, 1] + b[o] with x = X[:, colIdx]. -/
def out (X : FVec F S8192x1024 .f32) (C : FVec F S1024x5 .f32) (W : FVec F S1024x2 .f32) (B : FVec F S1024 .f32) :
    FVec F S8192x1024 .f32 :=
  addf (addf (mulf (siluR (xg X)) (wCol0 W)) (mulf (splineR C (xg X)) (wCol1 W))) (bRow B)

end Cert.ReferenceIdeal.RefValue

end
-- ==== Proof.RefRun.lean ====
/-
  The reference's run read back at its result and its arguments.

  After the 130 operations the result buffer holds the fold of the operations' results over the launch contents.
  That fold, read at the result buffer, is the staged term `RefValue.out` of the four argument arrays by
  computation: the fold unrolls, each operation's result decides whether the buffer read is the one it writes, and
  the typed references' casts are the identity at literal references. The pure operations themselves are kept
  folded meanwhile — the equation never looks inside them: the two sides are the same composition of the same
  operations, the staged definitions only naming its parts. No operation writes an argument buffer, so each
  argument ends as it began.
-/
import proofs.«158777_j1108101562900_1_alg».proof.Proof.RefOps
import proofs.«158777_j1108101562900_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.remsi concatenate fptosi sitofp Host.exp Host.negf Host.divf Host.floor
  broadcastInDim extractStridedSlice shapeCast iotaInDim constantI constant select cmpi andi addi
  addf subf mulf minimumf maximumf in
set_option maxRecDepth 16384 in
set_option maxHeartbeats 4000000 in
/-- The fold at the result buffer is the staged term of the four arguments' launch contents. -/
theorem out_eq (V : Valuation τ sig (Elt F)) :
    after ops V (main_v72 : DevRef τ sig)
      = RefValue.out (V (main_arg0 : DevRef τ sig)) (V (main_arg1 : DevRef τ sig)) (V (main_arg2 : DevRef τ sig))
          (V (main_arg3 : DevRef τ sig)) := by
  simp only [after_cons, after_nil]
  rfl

set_option maxRecDepth 16384 in
theorem arg0_eq (V : Valuation τ sig (Elt F)) :
    after ops V (main_arg0 : DevRef τ sig) = V (main_arg0 : DevRef τ sig) := by
  simp only [after_cons, after_nil]
  rfl

set_option maxRecDepth 16384 in
theorem arg1_eq (V : Valuation τ sig (Elt F)) :
    after ops V (main_arg1 : DevRef τ sig) = V (main_arg1 : DevRef τ sig) := by
  simp only [after_cons, after_nil]
  rfl

set_option maxRecDepth 16384 in
theorem arg2_eq (V : Valuation τ sig (Elt F)) :
    after ops V (main_arg2 : DevRef τ sig) = V (main_arg2 : DevRef τ sig) := by
  simp only [after_cons, after_nil]
  rfl

set_option maxRecDepth 16384 in
theorem arg3_eq (V : Valuation τ sig (Elt F)) :
    after ops V (main_arg3 : DevRef τ sig) = V (main_arg3 : DevRef τ sig) := by
  simp only [after_cons, after_nil]
  rfl

/-- At the compiled mesh, for any float values, from any memory with zero counters: every weakly fair execution of
    @main terminates with the result buffer at `RefValue.out` of the arguments' launch contents and the four
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72)
          = RefValue.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v72).trans (out_eq _), (h c main_arg0).trans (arg0_eq _), (h c main_arg1).trans (arg1_eq _),
      (h c main_arg2).trans (arg2_eq _), (h c main_arg3).trans (arg3_eq _)⟩)
    (run_main m ρ)

end Cert.ReferenceIdeal.RefRun

end
-- ==== Proof.RefReadIdx.lean ====
/-
  Integer stages of the reference read at an index.

  The reference computes the column each output column reads as arange(1024) % 1024 with the floor-remainder and
  negative-index fix-ups of 32-bit words. For 0 <= o < 1024 the truncated remainder of o by 1024 is o, its sign is
  not negative, the modulus 1024 is not negative, so neither fix-up fires: the column index at o is the word o.
  The same holds for the edge index o as a row, and a knot word below 5 is left as it is.
-/
import proofs.«158777_j1108101562900_1_alg».proof.Proof.RefTerm
import Idealize.ShloMosaic.Lib.ValueIdx
import Idealize.ShloMosaic.Lib.StableHlo.Predicate

noncomputable section

namespace Cert.ReferenceIdeal.RefRead

open Cert.ReferenceIdeal Cert.ReferenceIdeal.RefValue Idealize.ShloMosaic Idealize.ShloMosaic.ValueIdx
open Idealize.ShloMosaic.StableHlo

/-! ## Words -/

/-- A word below 2^31 is not negative: the signed compare with zero answers 0. -/
theorem slt_zero_of_small (n : Nat) (h : n < 2 ^ 31) : IntOp.cmpi .slt (BitVec.ofNat 32 n) 0#32 = 0#1 := by
  apply eq_zero_of_ne_one
  intro h1
  have hn : (BitVec.ofNat 32 n).toNat < 2 ^ 31 := by simp only [BitVec.toNat_ofNat]; omega
  have := (Predicate.slt_iff_toNat hn (by decide : (0#32 : BitVec 32).toNat < 2 ^ 31)).1 h1
  simp at this

/-- The truncated remainder by 1024 of a word below 1024 is the word. -/
theorem remsi_1024_of_lt (n : Nat) (h : n < 1024) :
    IntOp.remsi .host (BitVec.ofNat 32 n) 1024#32 = BitVec.ofNat 32 n := by
  have hc : ¬ IntOp.SDivCorner (BitVec.ofNat 32 n) 1024#32 := by
    intro hc; rcases hc with hc | ⟨_, hc⟩ <;> exact absurd hc (by decide)
  have hm : (BitVec.ofNat 32 n).msb = false :=
    BitVec.msb_eq_false_iff_two_mul_lt.mpr (by simp only [BitVec.toNat_ofNat]; omega)
  simp only [IntOp.remsi, if_neg hc, BitVec.srem_eq, hm, show (1024#32 : BitVec 32).msb = false from by decide]
  apply BitVec.eq_of_toNat_eq
  simp only [BitVec.toNat_umod, BitVec.toNat_ofNat, Nat.reducePow, Nat.reduceMod]
  omega

/-! ## The column index -/

variable [Facts]

/-- The modulus is 1024 (it is not zero). -/
theorem modulus_apply (i : S_.Idx) : modulus i = 1024#32 := rfl

/-- The truncated remainder at o is the word o. -/
theorem remTrunc_apply (o : Fin 1024) : remTrunc (ix1 o) = BitVec.ofNat 32 o.val := by
  show IntOp.remsi .host (BitVec.ofNat 32 o.val) 1024#32 = _
  exact remsi_1024_of_lt o.val o.isLt

/-- The floor remainder at o is the word o: the remainder is not negative, so the fix-up does not fire. -/
theorem floorRem_apply (o : Fin 1024) : floorRem (ix1 o) = BitVec.ofNat 32 o.val := by
  show Scalar.select
      (IntOp.andi (IntOp.cmpi .ne (IntOp.cmpi .slt (remTrunc (ix1 o)) 0#32) (IntOp.cmpi .slt 1024#32 0#32))
        (IntOp.cmpi .ne (remTrunc (ix1 o)) 0#32))
      (IntOp.addi (remTrunc (ix1 o)) 1024#32) (remTrunc (ix1 o)) = _
  rw [remTrunc_apply, slt_zero_of_small o.val (by have := o.isLt; omega)]
  have h0 : IntOp.andi (IntOp.cmpi .ne 0#1 (IntOp.cmpi .slt 1024#32 0#32)) (IntOp.cmpi .ne (BitVec.ofNat 32 o.val) 0#32) = 0#1 := by
    rw [show IntOp.cmpi .ne 0#1 (IntOp.cmpi .slt 1024#32 0#32) = 0#1 from by decide]
    show 0#1 &&& _ = 0#1
    exact BitVec.zero_and
  rw [h0, select_zero]

/-- The column index at o is the word o: it is not negative, so the fix-up does not fire. -/
theorem colIdx_apply (o : Fin 1024) : colIdx (ix1 o) = BitVec.ofNat 32 o.val := by
  show Scalar.select (IntOp.cmpi .slt (floorRem (ix1 o)) 0#32) (IntOp.addi (floorRem (ix1 o)) 1024#32) (floorRem (ix1 o)) = _
  rw [floorRem_apply, slt_zero_of_small o.val (by have := o.isLt; omega), select_zero]

end Cert.ReferenceIdeal.RefRead

end
-- ==== Proof.RefReadCols.lean ====
/-
  Three stages of the reference's result read at one element (r, o): the gathered input column, the two weight
  columns, and the bias row.

  x = X[:, colIdx] is a gather whose result axis 0 is an offset axis over the operand's rows (slice size 8192, start
  0) and whose operand axis 1 is collapsed and start-indexed by the index table's entry (o, 0). That entry is the
  column index of o, which is o itself; read as a signed integer and clamped into [0, 1023] it is still o, so the
  gather reads X at (r, o).

  W[:, c] laid along the rows is a slice of one column, a reshape of the [1024, 1] column to a vector (same row-major
  position), a broadcast of the vector to a [1, 1024] row and a broadcast of that row down the 8192 rows: at (r, o)
  it reads W at (o, c). The bias is the last two steps alone: at (r, o) it reads B at o.
-/
import proofs.«158777_j1108101562900_1_alg».proof.Proof.RefTerm
import proofs.«158777_j1108101562900_1_alg».proof.Proof.RefReadIdx
import Idealize.ShloMosaic.Lib.ValueIdx
import Idealize.ShloMosaic.Lib.ValueLayout
import Idealize.ShloMosaic.Lib.StableHlo.Predicate

namespace Cert.ReferenceIdeal.RefRead

open Cert.ReferenceIdeal Cert.ReferenceIdeal.RefValue Idealize.ShloMosaic Idealize.ShloMosaic.ValueIdx
open Idealize.ShloMosaic.StableHlo

variable {F : FTy → Type} [FloatOps F] [Facts]

/-! ## The weight columns and the bias row -/

/-- A vector laid as a [1, 1024] row and repeated down 8192 rows reads, at (r, o), the vector at o. -/
theorem rowBcast_apply {α : Type} (v : S1024.Idx → α) (h₁ : S1024.BroadcastsInDim S1x1024 ![1])
    (h₂ : S1x1024.BroadcastsInDim S8192x1024 ![0, 1]) (r : Fin 8192) (o : Fin 1024) :
    broadcastInDim S8192x1024 ![0, 1] h₂ (broadcastInDim S1x1024 ![1] h₁ v) (ix2 r o) = v (ix1 o) := by
  refine (broadcastInDim_apply _ h₂ _ (ix2 r o) (ix2 (0 : Fin 1) o) (fun a => ?_)).trans ?_
  · match a with
    | ⟨0, _⟩ => rfl
    | ⟨1, _⟩ => rfl
  · exact broadcastInDim_apply _ h₁ v _ (ix1 o) (fun a => by match a with | ⟨0, _⟩ => rfl)

/-- The bias row at (r, o) is the bias at o. -/
theorem bRow_apply (B : FVec F S1024 .f32) (r : Fin 8192) (o : Fin 1024) :
    bRow B (ix2 r o) = B (ix1 o) := by
  unfold bRow
  exact rowBcast_apply B _ _ r o

/-- The [1024, 1] column cast to a vector reads, at o, the column at (o, 0): the same row-major position. -/
theorem colCast_apply {α : Type} (u : S1024x1.Idx → α) (h : S1024x1.ShapeCasts S1024) (o : Fin 1024) :
    shapeCast S1024 u h (ix1 o) = u (ix2 o (0 : Fin 1)) :=
  shapeCast_apply u h _ _ (by
    rw [Shape.rowMajor_val_two, Shape.rowMajor_val_one]
    show o.val * 1 + 0 = o.val
    omega)

/-- Column 0 of W laid along the rows: at (r, o) it is W at (o, 0). -/
theorem wCol0_apply (W : FVec F S1024x2 .f32) (r : Fin 8192) (o : Fin 1024) :
    wCol0 W (ix2 r o) = W (ix2 o (0 : Fin 2)) := by
  unfold wCol0
  rw [rowBcast_apply, colCast_apply]
  exact slice2_axis1_apply 0 W _ o (0 : Fin 1) (0 : Fin 2) rfl

/-- Column 1 of W laid along the rows: at (r, o) it is W at (o, 1). -/
theorem wCol1_apply (W : FVec F S1024x2 .f32) (r : Fin 8192) (o : Fin 1024) :
    wCol1 W (ix2 r o) = W (ix2 o (1 : Fin 2)) := by
  unfold wCol1
  rw [rowBcast_apply, colCast_apply]
  exact slice2_axis1_apply 1 W _ o (0 : Fin 1) (1 : Fin 2) rfl

/-! ## The gathered input -/

/-- The index table of the gather, the column indices as a [1024, 1] column, reads at (o, 0) the word of o. -/
theorem idxCol_apply (h : S1024.BroadcastsInDim S1024x1 ![0]) (o : Fin 1024) :
    broadcastInDim S1024x1 ![0] h colIdx (ix2 o (0 : Fin 1)) = BitVec.ofNat 32 o.val := by
  rw [broadcastInDim_apply ![0] h colIdx _ (ix1 o) (fun a => by match a with | ⟨0, _⟩ => rfl)]
  exact colIdx_apply o

/-- x = X[:, colIdx] at (r, o) is X at (r, o). -/
theorem xg_apply (X : FVec F S8192x1024 .f32) (r : Fin 8192) (o : Fin 1024) :
    xg X (ix2 r o) = X (ix2 r o) := by
  unfold xg Host.gather
  congr 1
  funext a
  refine Fin.ext ?_
  match a with
  | ⟨0, _⟩ =>
    -- a row axis: no start index, no batching; the result's axis 0 is its offset axis
    show GatherDims.start _ (ix2 r o) _ 0 + GatherDims.batchCoord _ (ix2 r o) 0 + GatherDims.offCoord _ (ix2 r o) 0 = r.val
    rw [GatherDims.batchCoord_eq_zero _ _ _ List.not_mem_nil]
    unfold GatherDims.start
    rw [dif_neg (show (0 : Fin 2) ∉ (gather_S8192x1024_S1024x1_S8192x1024_0_1_n_n_1_1_81921).startIndexMap from
      show (0 : Fin 2) ∉ [(1 : Fin 2)] by decide)]
    show 0 + 0 + r.val = r.val
    omega
  | ⟨1, _⟩ =>
    -- the column axis: collapsed, start-indexed by the table's entry (o, 0)
    show GatherDims.start _ (ix2 r o) _ 1 + GatherDims.batchCoord _ (ix2 r o) 1 + GatherDims.offCoord _ (ix2 r o) 1 = o.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S8192x1024_S1024x1_S8192x1024_0_1_n_n_1_1_81921).startIndexMap from
      List.mem_singleton.mpr rfl)]
    have hsi : GatherDims.siIdx gather_S8192x1024_S1024x1_S8192x1024_0_1_n_n_1_1_81921 (ix2 r o)
        ⟨List.idxOf (1 : Fin 2) (gather_S8192x1024_S1024x1_S8192x1024_0_1_n_n_1_1_81921).startIndexMap,
          List.idxOf_lt_length_iff.2 (List.mem_singleton.mpr rfl)⟩ = ix2 o (0 : Fin 1) := by
      funext b; refine Fin.ext ?_
      match b with
      | ⟨0, _⟩ => rfl
      | ⟨1, _⟩ => rfl
    rw [hsi, idxCol_apply, Predicate.toInt_ofNat_small o.val (by omega)]
    show min (o.val : Int).toNat 1023 = o.val
    rw [Int.toNat_natCast]
    omega

end Cert.ReferenceIdeal.RefRead
-- ==== Proof.RefReadGather.lean ====
/-
  The point gather of the spline coefficients read at an index.

  The start indices are the pairs (edge o, knot k[r, o]), laid along a last axis of extent 2 by a concatenation of two
  arrays of last extent 1. Both operand axes are collapsed and start-indexed, so the result at (r, o) is the operand at
  the two start components, each read signed and clamped so that the slice of one element fits: the edge component is
  the word o, which reads o and stays below 1024; a knot component that is the word j below 5 reads j and stays below 5.
  So the gather reads coeffs[o, j].
-/
import proofs.«158777_j1108101562900_1_alg».proof.Proof.RefReadIdx
import Idealize.ShloMosaic.Lib.Pipeline.Value

noncomputable section

namespace Cert.ReferenceIdeal.RefRead

open Cert.ReferenceIdeal Cert.ReferenceIdeal.RefValue Idealize.ShloMosaic Idealize.ShloMosaic.ValueIdx
open Idealize.ShloMosaic.StableHlo
open Cert.ReferenceIdeal.Facts₀ Cert.ReferenceIdeal.Facts

variable {F : FTy → Type} [FloatOps F] [Facts]

/-! ## The two components of the start index -/

/-- The edge index as a row reads the word o: it is not negative, so the fix-up does not fire. -/
theorem edgeRow_apply (z : Fin 1) (o : Fin 1024) : edgeRow (ix2 z o) = BitVec.ofNat 32 o.val := by
  show Scalar.select (IntOp.cmpi .slt (BitVec.ofNat 32 o.val) 0#32) (IntOp.addi (BitVec.ofNat 32 o.val) 1024#32)
      (BitVec.ofNat 32 o.val) = _
  rw [slt_zero_of_small o.val (by have := o.isLt; omega), select_zero]

/-- A knot word that is not negative is left as it is. -/
theorem wrapKnot_apply (k : IVec S8192x1024 32) (i : S8192x1024.Idx) (j : ℕ) (hj : j < 2 ^ 31)
    (hk : k i = BitVec.ofNat 32 j) : wrapKnot k i = BitVec.ofNat 32 j := by
  show Scalar.select (IntOp.cmpi .slt (k i) 0#32) (IntOp.addi (k i) 5#32) (k i) = _
  rw [hk, slt_zero_of_small j hj, select_zero]

/-- The start indices at (r, o, 0): the edge word o. -/
theorem pairIdx_apply_edge (k : IVec S8192x1024 32) (r : Fin 8192) (o : Fin 1024) :
    pairIdx k (ix3 r o (0 : Fin 2)) = BitVec.ofNat 32 o.val := by
  unfold pairIdx
  rw [concatenate_pair_apply_left (t := S8192x1024x2) (s₁ := S8192x1024x1) (s₂ := S8192x1024x1)
    (2 : Fin S8192x1024x2.rank) _ _ _ (ix3 r o (0 : Fin 2)) rfl (ix3 r o (0 : Fin 1))
    (fun b => by match b with | ⟨0, _⟩ => rfl | ⟨1, _⟩ => rfl | ⟨2, _⟩ => rfl)]
  rw [broadcastInDim_apply _ _ _ (ix3 r o (0 : Fin 1)) (ix2 r o)
    (fun a => by match a with | ⟨0, _⟩ => rfl | ⟨1, _⟩ => rfl)]
  rw [broadcastInDim_apply _ _ _ (ix2 r o) (ix2 (0 : Fin 1) o)
    (fun a => by match a with | ⟨0, _⟩ => rfl | ⟨1, _⟩ => rfl)]
  exact edgeRow_apply 0 o

/-- The start indices at (r, o, 1): the knot word at (r, o), when it is not negative. -/
theorem pairIdx_apply_knot (k : IVec S8192x1024 32) (r : Fin 8192) (o : Fin 1024) (j : ℕ) (hj : j < 2 ^ 31)
    (hk : k (ix2 r o) = BitVec.ofNat 32 j) :
    pairIdx k (ix3 r o (1 : Fin 2)) = BitVec.ofNat 32 j := by
  unfold pairIdx
  rw [concatenate_pair_apply_right (t := S8192x1024x2) (s₁ := S8192x1024x1) (s₂ := S8192x1024x1)
    (2 : Fin S8192x1024x2.rank) _ _ _ (ix3 r o (1 : Fin 2)) rfl rfl (ix3 r o (0 : Fin 1))
    (fun b hb => by
      match b with
      | ⟨0, _⟩ => rfl
      | ⟨1, _⟩ => rfl
      | ⟨2, _⟩ => exact absurd rfl hb)
    rfl]
  rw [broadcastInDim_apply _ _ _ (ix3 r o (0 : Fin 1)) (ix2 r o)
    (fun a => by match a with | ⟨0, _⟩ => rfl | ⟨1, _⟩ => rfl)]
  exact wrapKnot_apply k (ix2 r o) j hj hk

/-! ## The gather -/

/-- coeffs[o, k] at (r, o), when the knot word there is j below 5: the operand at (o, j). -/
theorem coefAt_apply (C : FVec F S1024x5 .f32) (k : IVec S8192x1024 32) (r : Fin 8192) (o : Fin 1024) (j : ℕ) (hj : j < 5)
    (hk : k (ix2 r o) = BitVec.ofNat 32 j) :
    coefAt C k (ix2 r o) = C (ix2 o (⟨j, hj⟩ : Fin 5)) := by
  unfold coefAt Host.gather
  congr 1
  funext a
  refine Fin.ext ?_
  show gather_S1024x5_S8192x1024x2_S8192x1024_n_01_n_n_01_2_11.start (ix2 r o) (pairIdx k) a
      + gather_S1024x5_S8192x1024x2_S8192x1024_n_01_n_n_01_2_11.batchCoord (ix2 r o) a
      + gather_S1024x5_S8192x1024x2_S8192x1024_n_01_n_n_01_2_11.offCoord (ix2 r o) a = _
  rw [GatherDims.batchCoord_eq_zero _ _ _ List.not_mem_nil]
  match a with
  | ⟨0, h0⟩ =>
    -- the edge axis: collapsed, and the first entry of the start index map
    have hm : (⟨0, h0⟩ : Fin S1024x5.rank) ∈ gather_S1024x5_S8192x1024x2_S8192x1024_n_01_n_n_01_2_11.startIndexMap :=
      List.Mem.head _
    have hc : (⟨0, h0⟩ : Fin S1024x5.rank) ∈ gather_S1024x5_S8192x1024x2_S8192x1024_n_01_n_n_01_2_11.collapsedSliceDims :=
      List.Mem.head _
    rw [GatherDims.offCoord_eq_zero _ _ _ (fun h => ((GatherDims.mem_sKept _ _).mp h).1 hc)]
    simp only [Nat.add_zero]
    unfold GatherDims.start
    rw [dif_pos hm]
    have hsi : gather_S1024x5_S8192x1024x2_S8192x1024_n_01_n_n_01_2_11.siIdx (ix2 r o)
        ⟨List.idxOf (⟨0, h0⟩ : Fin S1024x5.rank) gather_S1024x5_S8192x1024x2_S8192x1024_n_01_n_n_01_2_11.startIndexMap,
          List.idxOf_lt_length_iff.2 hm⟩ = ix3 r o (0 : Fin 2) := by
      funext b; refine Fin.ext ?_
      match b with
      | ⟨0, _⟩ => rfl
      | ⟨1, _⟩ => rfl
      | ⟨2, _⟩ => rfl
    rw [hsi, pairIdx_apply_edge, Predicate.toInt_ofNat_small o.val (by have := o.isLt; omega), Int.toNat_natCast]
    show min o.val (1024 - 1) = o.val
    have := o.isLt
    omega
  | ⟨1, h1⟩ =>
    -- the knot axis: collapsed, and the second entry of the start index map
    have hm : (⟨1, h1⟩ : Fin S1024x5.rank) ∈ gather_S1024x5_S8192x1024x2_S8192x1024_n_01_n_n_01_2_11.startIndexMap :=
      List.Mem.tail _ (List.Mem.head _)
    have hc : (⟨1, h1⟩ : Fin S1024x5.rank) ∈ gather_S1024x5_S8192x1024x2_S8192x1024_n_01_n_n_01_2_11.collapsedSliceDims :=
      List.Mem.tail _ (List.Mem.head _)
    rw [GatherDims.offCoord_eq_zero _ _ _ (fun h => ((GatherDims.mem_sKept _ _).mp h).1 hc)]
    simp only [Nat.add_zero]
    unfold GatherDims.start
    rw [dif_pos hm]
    have hsi : gather_S1024x5_S8192x1024x2_S8192x1024_n_01_n_n_01_2_11.siIdx (ix2 r o)
        ⟨List.idxOf (⟨1, h1⟩ : Fin S1024x5.rank) gather_S1024x5_S8192x1024x2_S8192x1024_n_01_n_n_01_2_11.startIndexMap,
          List.idxOf_lt_length_iff.2 hm⟩ = ix3 r o (1 : Fin 2) := by
      funext b; refine Fin.ext ?_
      match b with
      | ⟨0, _⟩ => rfl
      | ⟨1, _⟩ => rfl
      | ⟨2, _⟩ => rfl
    rw [hsi, pairIdx_apply_knot k r o j (by omega) hk, Predicate.toInt_ofNat_small j (by omega), Int.toNat_natCast]
    show min j (5 - 1) = j
    omega

/-- The same with the knot word given by a coordinate of the coefficient axis. -/
theorem coefAt_apply_fin (C : FVec F S1024x5 .f32) (k : IVec S8192x1024 32) (r : Fin 8192) (o : Fin 1024) (j : Fin 5)
    (hk : k (ix2 r o) = BitVec.ofNat 32 j.val) : coefAt C k (ix2 r o) = C (ix2 o j) :=
  coefAt_apply C k r o j.val j.isLt hk

end Cert.ReferenceIdeal.RefRead

end
-- ==== Proof.RefReadKnot.lean ====
/-
  The knot at the extended reals.

  For every extended real y, clip(⌊y⌋, 0, 3) is one of the reals 0, 1, 2, 3: the floor fixes the infinities, the
  maximum with 0 sends -∞ to 0 and the minimum with 3 sends +∞ to 3, and on a real the floor is an integer, which the
  clip leaves in {0, 1, 2, 3}. Converting such a real j to a 32-bit word gives the word j, and converting that word back
  gives the real j. So the integer knot is the word j, the fraction t - float(int(knot)) is t - knot, and in the chain
  of selects on knot = 3, 2, 1, 0 exactly the select of j is taken.
-/
import proofs.«158777_j1108101562900_1_alg».proof.Proof.Spec
import Idealize.ShloMosaic.PureOps.Ideal
import Idealize.ShloMosaic.Lib.ValueIdx
import Idealize.ShloMosaic.Lib.StableHlo.Predicate

noncomputable section

namespace Cert.ReferenceIdeal.RefRead

open Idealize.ShloMosaic Idealize.ShloMosaic.ValueIdx Idealize.ShloMosaic.StableHlo

/-! ## The float literals the knot argument reads -/

/-- The word of +0.0 denotes 0. -/
theorem ofBits_zero : Ideal.ofBits .f32 0x00000000#32 = ((0 : ℝ) : EReal) := by
  simp [Ideal.ofBits, Ideal.ieee]

/-- The word of 1.0 denotes 1. -/
theorem ofBits_one : Ideal.ofBits .f32 0x3F800000#32 = ((1 : ℝ) : EReal) := by
  simp [Ideal.ofBits, Ideal.ieee, -EReal.coe_mul]; norm_num

/-- The word of 2.0 denotes 2. -/
theorem ofBits_two : Ideal.ofBits .f32 0x40000000#32 = ((2 : ℝ) : EReal) := by
  simp [Ideal.ofBits, Ideal.ieee, -EReal.coe_mul]; norm_num

/-- The word of 3.0 denotes 3. -/
theorem ofBits_three : Ideal.ofBits .f32 0x40400000#32 = ((3 : ℝ) : EReal) := by
  simp [Ideal.ofBits, Ideal.ieee, -EReal.coe_mul]; norm_num

/-! ## clip(⌊y⌋, 0, 3) is one of 0, 1, 2, 3 -/

theorem clipFloor_cases (y : EReal) :
    ∃ j : ℕ, j < 4 ∧ min ((3 : ℝ) : EReal) (max ((0 : ℝ) : EReal) (Ideal.liftRound Int.floor y)) = ((j : ℝ) : EReal) := by
  induction y using EReal.rec with
  | bot =>
    refine ⟨0, by omega, ?_⟩
    rw [Ideal.liftRound_bot, max_eq_left bot_le, min_eq_right (EReal.coe_le_coe_iff.2 (by norm_num))]
    norm_num
  | top =>
    refine ⟨3, by omega, ?_⟩
    rw [Ideal.liftRound_top, max_eq_right le_top, min_eq_left le_top]
    norm_num
  | coe r =>
    rw [Ideal.liftRound_coe]
    have e : min ((3 : ℝ) : EReal) (max ((0 : ℝ) : EReal) (((⌊r⌋ : ℤ) : ℝ) : EReal))
        = (((min 3 (max 0 ⌊r⌋) : ℤ) : ℝ) : EReal) := by
      rw [← EReal.coe_strictMono.monotone.map_max, ← EReal.coe_strictMono.monotone.map_min]
      congr 1
      push_cast
      rfl
    refine ⟨(min 3 (max 0 ⌊r⌋)).toNat, by omega, ?_⟩
    rw [e]
    congr 1
    have h : ((min 3 (max 0 ⌊r⌋)).toNat : ℤ) = min 3 (max 0 ⌊r⌋) := Int.toNat_of_nonneg (by omega)
    rw [← h, Int.cast_natCast, Int.toNat_natCast]

/-! ## The conversions at 0, 1, 2, 3 -/

/-- The real j below 4 converts to the word j. -/
theorem fptosi_nat (j : ℕ) (hj : j < 4) : Ideal.fptosi 32 ((j : ℝ) : EReal) = BitVec.ofNat 32 j := by
  unfold Ideal.fptosi
  rw [Ideal.toIntClamped_coe, if_pos (Nat.cast_nonneg j), Int.floor_natCast]
  have h : max (-((2 ^ (32 - 1) : ℕ) : ℤ)) (min (((2 ^ (32 - 1) : ℕ) : ℤ) - 1) (j : ℤ)) = (j : ℤ) := by
    norm_num
    omega
  rw [h, BitVec.ofInt_natCast]

/-- The word j below 2^31 converts to the real j. -/
theorem sitofp_nat (j : ℕ) (hj : j < 2 ^ 31) :
    FloatOps.sitofp (F := Ideal) .f32 (BitVec.ofNat 32 j) = ((j : ℝ) : EReal) := by
  show (((BitVec.ofNat 32 j).toInt : ℝ) : EReal) = _
  rw [Predicate.toInt_ofNat_small j hj, Int.cast_natCast]

/-- The integer constant 3 converts to the real the word of 3.0 denotes. -/
theorem sitofp_three : FloatOps.sitofp (F := Ideal) .f32 (3#32 : BitVec 32) = Ideal.ofBits .f32 0x40400000#32 := by
  rw [ofBits_three, show (3#32 : BitVec 32) = BitVec.ofNat 32 3 from rfl, sitofp_nat 3 (by norm_num)]
  norm_num

/-- The integer constant 0 converts to the real the word of +0.0 denotes. -/
theorem sitofp_zero : FloatOps.sitofp (F := Ideal) .f32 (0#32 : BitVec 32) = Ideal.ofBits .f32 0x00000000#32 := by
  rw [ofBits_zero, show (0#32 : BitVec 32) = BitVec.ofNat 32 0 from rfl, sitofp_nat 0 (by norm_num)]
  norm_num

/-! ## The knot of the layer -/

/-- The knot is one of the reals 0, 1, 2, 3. -/
theorem knot_cases (x : Ideal .f32) : ∃ j : ℕ, j < 4 ∧ Cert.Spec.knot (F := Ideal) x = ((j : ℝ) : EReal) := by
  obtain ⟨j, hj, h⟩ := clipFloor_cases (Cert.Spec.tcoord (F := Ideal) x)
  refine ⟨j, hj, ?_⟩
  rw [← h, ← ofBits_three, ← ofBits_zero]
  rfl

/-- An ordered-equal compare of two reals answers 1 exactly when they are equal. -/
theorem cmpf_oeq_coe (a b : ℝ) :
    FloatOps.cmpf (F := Ideal) (φ := .f32) .oeq ((a : ℝ) : EReal) ((b : ℝ) : EReal) = if a = b then 1#1 else 0#1 := by
  show BitVec.ofBool (decide (((a : ℝ) : EReal) = ((b : ℝ) : EReal))) = _
  by_cases h : a = b
  · rw [if_pos h, h]; simp
  · rw [if_neg h]
    have : ¬ ((a : ℝ) : EReal) = ((b : ℝ) : EReal) := fun e => h (EReal.coe_eq_coe_iff.1 e)
    simp [this]

/-- With the knot the real j, the chain of selects takes the segment of j. -/
theorem spline_of_knot (x c0 c1 c2 c3 c4 : Ideal .f32) (j : ℕ) (hj : j < 4)
    (hk : Cert.Spec.knot (F := Ideal) x = ((j : ℝ) : EReal)) :
    Cert.Spec.spline (F := Ideal) x c0 c1 c2 c3 c4
      = Cert.Spec.seg (F := Ideal) ((![c0, c1, c2, c3] : Fin 4 → Ideal .f32) ⟨j, hj⟩)
          ((![c1, c2, c3, c4] : Fin 4 → Ideal .f32) ⟨j, hj⟩) x := by
  have e3 : (Scalar.ofBits .f32 0x40400000#32 : Ideal .f32) = ((3 : ℝ) : EReal) := ofBits_three
  have e2 : (Scalar.ofBits .f32 0x40000000#32 : Ideal .f32) = ((2 : ℝ) : EReal) := ofBits_two
  have e1 : (Scalar.ofBits .f32 0x3F800000#32 : Ideal .f32) = ((1 : ℝ) : EReal) := ofBits_one
  have e0 : (Scalar.ofBits .f32 0x00000000#32 : Ideal .f32) = ((0 : ℝ) : EReal) := ofBits_zero
  unfold Cert.Spec.spline
  rw [hk, e3, e2, e1, cmpf_oeq_coe, cmpf_oeq_coe, cmpf_oeq_coe]
  rw [show (FloatOps.cmpf (F := Ideal) (φ := .f32) .oeq ((j : ℝ) : EReal) (Scalar.ofBits .f32 0x00000000#32))
      = if (j : ℝ) = 0 then 1#1 else 0#1 from by rw [e0]; exact cmpf_oeq_coe _ _]
  interval_cases j
  · norm_num [select_one, select_zero]
  · norm_num [select_one, select_zero]
  · norm_num [select_one, select_zero]
  · norm_num [select_one, select_zero]

end Cert.ReferenceIdeal.RefRead

end
-- ==== Proof.RefRead.lean ====
/-
  The reference's result read at one entry (r, o): it is the layer at that entry.

  Every stage of the chain is pointwise in x = X[r, o] but the two gathers, the index arithmetic and the re-layings of
  W and b. With x read at (r, o): the grid coordinate is the layer's, the float knot is the layer's knot (the integer
  constants 3 and 0 convert to the reals the literals 3.0 and 0.0 denote), which is one of the reals 0, 1, 2, 3, say j;
  the integer knot is the word j and k + 1 the word j + 1; converting the word j back gives the real j, so the
  fraction is the layer's t - knot; the two point gathers read coeffs[o, j] and coeffs[o, j + 1]; and
  1 / (1 + e^(-x)) is the logistic function, the literal 1.0 denoting 1. So the reference computes
  silu(x) · W[o, 0] + seg(coeffs[o, j], coeffs[o, j + 1]) · W[o, 1] + b[o], and the layer's chain of selects on
  knot = 3, 2, 1, 0 takes exactly the segment of j.
-/
import proofs.«158777_j1108101562900_1_alg».proof.Proof.RefReadCols
import proofs.«158777_j1108101562900_1_alg».proof.Proof.RefReadGather
import proofs.«158777_j1108101562900_1_alg».proof.Proof.RefReadKnot

noncomputable section

namespace Cert.ReferenceIdeal.RefRead

open Cert.ReferenceIdeal Cert.ReferenceIdeal.RefValue Idealize.ShloMosaic Idealize.ShloMosaic.ValueIdx
open Idealize.ShloMosaic.StableHlo

variable [Facts]

/-! ## The pointwise stages at an index -/

/-- The grid coordinate at an index is the layer's of the element. -/
theorem tR_apply (x : FVec Ideal S8192x1024 .f32) (i : S8192x1024.Idx) :
    tR x i = Cert.Spec.tcoord (F := Ideal) (x i) := rfl

/-- The float knot at an index is the layer's knot of the element. -/
theorem kfR_apply (x : FVec Ideal S8192x1024 .f32) (i : S8192x1024.Idx) :
    kfR x i = Cert.Spec.knot (F := Ideal) (x i) := by
  show min (FloatOps.sitofp (F := Ideal) .f32 (3#32 : BitVec 32))
      (max (FloatOps.sitofp (F := Ideal) .f32 (0#32 : BitVec 32)) (Ideal.liftRound Int.floor (tR x i))) = _
  rw [sitofp_three, sitofp_zero]
  rfl

/-- The integer knot at an index where the layer's knot is the real j is the word j. -/
theorem kI_apply (x : FVec Ideal S8192x1024 .f32) (i : S8192x1024.Idx) (j : ℕ) (hj : j < 4)
    (hk : Cert.Spec.knot (F := Ideal) (x i) = ((j : ℝ) : EReal)) : kI x i = BitVec.ofNat 32 j := by
  show Ideal.fptosi 32 (kfR x i) = _
  rw [kfR_apply, hk, fptosi_nat j hj]

/-- The knot to the right there is the word j + 1. -/
theorem kNext_apply (x : FVec Ideal S8192x1024 .f32) (i : S8192x1024.Idx) (j : ℕ) (hj : j < 4)
    (hk : Cert.Spec.knot (F := Ideal) (x i) = ((j : ℝ) : EReal)) : kNext x i = BitVec.ofNat 32 (j + 1) := by
  show IntOp.addi (kI x i) 1#32 = _
  rw [kI_apply x i j hj hk]
  interval_cases j <;> rfl

/-- The fraction at an index is the layer's of the element. -/
theorem fracR_apply (x : FVec Ideal S8192x1024 .f32) (i : S8192x1024.Idx) :
    fracR x i = Cert.Spec.frac (F := Ideal) (x i) := by
  obtain ⟨j, hj, hk⟩ := knot_cases (x i)
  show FloatOps.subf (tR x i) (FloatOps.sitofp (F := Ideal) .f32 (kI x i)) = _
  rw [kI_apply x i j hj hk, sitofp_nat j (by omega), ← hk]
  rfl

/-- x · (1 / (1 + e^(-x))) at an index is x times the logistic function of x. -/
theorem siluR_apply (x : FVec Ideal S8192x1024 .f32) (i : S8192x1024.Idx) :
    siluR x i = FloatOps.mulf (x i) (FloatOps.logistic (x i)) := by
  show x i * Ideal.div (Ideal.ofBits .f32 0x3F800000#32) (Ideal.ofBits .f32 0x3F800000#32 + Ideal.exp (-(x i)))
      = x i * Ideal.div 1 (1 + Ideal.exp (-(x i)))
  rw [ofBits_one, EReal.coe_one]

/-- The interpolation at (r, o) where the knot is the real j: the segment of coeffs[o, j] and coeffs[o, j + 1]. -/
theorem splineR_apply (C : FVec Ideal S1024x5 .f32) (x : FVec Ideal S8192x1024 .f32) (r : Fin 8192) (o : Fin 1024)
    (j : ℕ) (hj : j < 4) (hk : Cert.Spec.knot (F := Ideal) (x (ix2 r o)) = ((j : ℝ) : EReal)) :
    splineR C x (ix2 r o)
      = Cert.Spec.seg (F := Ideal) (C (ix2 o (⟨j, by omega⟩ : Fin 5))) (C (ix2 o (⟨j + 1, by omega⟩ : Fin 5))) (x (ix2 r o)) := by
  show FloatOps.addf
      (FloatOps.mulf (coefAt C (kI x) (ix2 r o))
        (FloatOps.subf (FloatOps.ofBits .f32 0x3F800000#32) (fracR x (ix2 r o))))
      (FloatOps.mulf (coefAt C (kNext x) (ix2 r o)) (fracR x (ix2 r o))) = _
  rw [coefAt_apply C (kI x) r o j (by omega) (kI_apply x (ix2 r o) j hj hk),
    coefAt_apply C (kNext x) r o (j + 1) (by omega) (kNext_apply x (ix2 r o) j hj hk), fracR_apply]
  rfl

/-! ## The result at an entry -/

/-- The reference's result at (r, o) is the layer at that entry, for all extended-real inputs. -/
theorem out_apply (X : FVec Ideal S8192x1024 .f32) (C : FVec Ideal S1024x5 .f32) (W : FVec Ideal S1024x2 .f32)
    (B : FVec Ideal S1024 .f32) (r : Fin 8192) (o : Fin 1024) :
    RefValue.out (F := Ideal) X C W B (ValueIdx.ix2 r o)
      = Cert.Spec.kan (F := Ideal) (X (ValueIdx.ix2 r o)) (C (ValueIdx.ix2 o (0 : Fin 5))) (C (ValueIdx.ix2 o (1 : Fin 5)))
          (C (ValueIdx.ix2 o (2 : Fin 5))) (C (ValueIdx.ix2 o (3 : Fin 5))) (C (ValueIdx.ix2 o (4 : Fin 5)))
          (W (ValueIdx.ix2 o (0 : Fin 2))) (W (ValueIdx.ix2 o (1 : Fin 2))) (B (ValueIdx.ix1 o)) := by
  obtain ⟨j, hj, hk⟩ := knot_cases (X (ix2 r o))
  have hx : xg X (ix2 r o) = X (ix2 r o) := xg_apply X r o
  show FloatOps.addf
      (FloatOps.addf (FloatOps.mulf (siluR (xg X) (ix2 r o)) (wCol0 W (ix2 r o)))
        (FloatOps.mulf (splineR C (xg X) (ix2 r o)) (wCol1 W (ix2 r o))))
      (bRow B (ix2 r o)) = _
  rw [siluR_apply, splineR_apply C (xg X) r o j hj (by rw [hx]; exact hk), hx, wCol0_apply, wCol1_apply, bRow_apply]
  unfold Cert.Spec.kan
  rw [spline_of_knot _ _ _ _ _ _ j hj hk]
  interval_cases j <;> rfl

end Cert.ReferenceIdeal.RefRead

end
-- ==== Proof.Bridge.lean ====
/-
  The kernel's result array and the reference's are one array.

  The kernel computes, at (r, o), the layer's entry of X[r, o] and column o of the TRANSPOSED parameter tables; the
  reference's result at (r, o) is the same entry of X[r, o] and row o of the tables as given (RefRead.out_apply). A
  transposed table read at (s, o) is the table at (o, s), so the two arrays agree index by index.
-/
import proofs.«158777_j1108101562900_1_alg».proof.Proof.KernelArray
import proofs.«158777_j1108101562900_1_alg».proof.Proof.RefRead
import proofs.«158777_j1108101562900_1_alg».proof.Proof.Gen.ReferenceIdeal
import Idealize.ShloMosaic.Lib.ValueLayout

noncomputable section

namespace Cert.Bridge

open Idealize.ShloMosaic Idealize.ShloMosaic.ValueIdx

/-- The layer over X, the two transposed tables and the bias is the reference's result over X, the tables and the bias. -/
theorem layer_eq_out (X : FVec Ideal Cert.ReferenceIdeal.S8192x1024 .f32) (C : FVec Ideal Cert.ReferenceIdeal.S1024x5 .f32)
    (W : FVec Ideal Cert.ReferenceIdeal.S1024x2 .f32) (B : FVec Ideal Cert.ReferenceIdeal.S1024 .f32) :
    Cert.KernelIdeal.KanArray.layer (F := Ideal) X
        (transpose Cert.KernelIdeal.S5x1024 [1, 0] C Cert.KernelIdeal.Gen.transposes_S1024x5_S5x1024_1_0)
        (transpose Cert.KernelIdeal.S2x1024 [1, 0] W Cert.KernelIdeal.Gen.transposes_S1024x2_S2x1024_1_0) B
      = Cert.ReferenceIdeal.RefValue.out (F := Ideal) X C W B := by
  funext i
  obtain ⟨r, o, rfl⟩ : ∃ (r : Fin 8192) (o : Fin 1024), i = ix2 r o := ⟨i 0, i 1, eq_ix2 i⟩
  rw [Cert.ReferenceIdeal.RefRead.out_apply]
  show Cert.Spec.kan (X (ix2 r o))
      (transpose Cert.KernelIdeal.S5x1024 [1, 0] C Cert.KernelIdeal.Gen.transposes_S1024x5_S5x1024_1_0 (ix2 (0 : Fin 5) o))
      (transpose Cert.KernelIdeal.S5x1024 [1, 0] C Cert.KernelIdeal.Gen.transposes_S1024x5_S5x1024_1_0 (ix2 (1 : Fin 5) o))
      (transpose Cert.KernelIdeal.S5x1024 [1, 0] C Cert.KernelIdeal.Gen.transposes_S1024x5_S5x1024_1_0 (ix2 (2 : Fin 5) o))
      (transpose Cert.KernelIdeal.S5x1024 [1, 0] C Cert.KernelIdeal.Gen.transposes_S1024x5_S5x1024_1_0 (ix2 (3 : Fin 5) o))
      (transpose Cert.KernelIdeal.S5x1024 [1, 0] C Cert.KernelIdeal.Gen.transposes_S1024x5_S5x1024_1_0 (ix2 (4 : Fin 5) o))
      (transpose Cert.KernelIdeal.S2x1024 [1, 0] W Cert.KernelIdeal.Gen.transposes_S1024x2_S2x1024_1_0 (ix2 (0 : Fin 2) o))
      (transpose Cert.KernelIdeal.S2x1024 [1, 0] W Cert.KernelIdeal.Gen.transposes_S1024x2_S2x1024_1_0 (ix2 (1 : Fin 2) o))
      (B (ix1 o)) = _
  rw [transpose_ix2_apply, transpose_ix2_apply, transpose_ix2_apply, transpose_ix2_apply, transpose_ix2_apply,
    transpose_ix2_apply, transpose_ix2_apply]

end Cert.Bridge

end
-- ==== Proof.lean ====
/-
  The certificate of the KAN layer kernel against its jnp reference.

  The layer: Y[r, o] = silu(X[r, o]) · W[o, 0] + spline_o(X[r, o]) · W[o, 1] + b[o], where spline_o is the linear B-spline
  of edge o on the uniform 5-knot grid over [-1, 1] with coefficients coeffs[o, 0..4] (Proof/Spec.lean: the entry as a
  function of nine scalars).
  The kernel stages 16 row blocks of X beside the transposed parameter tables and computes the entry elementwise, the
  spline's segment chosen by four selects on the knot; its result array is the layer over X and the transposed tables
  (Proof/KernelArray.lean, over the kernel's value leg). The reference gathers x = X[:, o % 1024] (the identity), finds
  the knot as an integer and gathers coeffs[o, k] and coeffs[o, k + 1]; run operation by operation (Proof/RefOps.lean,
  Proof/RefRun.lean) its result is a staged term (Proof/RefTerm.lean) which, read at an index, is the same entry
  (Proof/RefRead.lean: the knot is one of 0, 1, 2, 3 for every extended real x, so the integer round trip is exact and
  the gathers read the coefficients the selects choose). A transposed table at (s, o) is the table at (o, s)
  (Proof/Bridge.lean), so the two result arrays are equal for all inputs; the precondition is not used.
  The three frames: the two kernel programs' are the generated frame certificates; the reference's is its run with
  the result dropped. The idealization rewrote nothing, so the preserves claim is True.
-/
import proofs.«158777_j1108101562900_1_alg».proof.Defs
import proofs.«158777_j1108101562900_1_alg».proof.Proof.Gen.Kernel
import proofs.«158777_j1108101562900_1_alg».proof.Proof.Gen.Kernel.Frame
import proofs.«158777_j1108101562900_1_alg».proof.Proof.Gen.KernelIdeal
import proofs.«158777_j1108101562900_1_alg».proof.Proof.Gen.KernelIdeal.Frame
import proofs.«158777_j1108101562900_1_alg».proof.Proof.Gen.ReferenceIdeal
import proofs.«158777_j1108101562900_1_alg».proof.Proof.Gen.Pre_finite_inputs
import proofs.«158777_j1108101562900_1_alg».proof.Proof.KernelArray
import proofs.«158777_j1108101562900_1_alg».proof.Proof.RefRun
import proofs.«158777_j1108101562900_1_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the layer's array of the arguments: the kernel's run and the reference's run from agreeing
    memories, the reference's staged term rewritten to the kernel's array by the bridge. -/
theorem algebraic : Cert.algebraic_KernelIdeal_ReferenceIdeal := by
  intro m ρ m' ρ' _ hagree
  refine ⟨_, Cert.KernelIdeal.KanArray.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact (Cert.Bridge.layer_eq_out _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
